-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S8x4096x4096 : Shape := ⟨3, ![8, 4096, 4096]⟩
abbrev S_ : Shape := ⟨0, ![]⟩
abbrev S8x4096 : Shape := ⟨2, ![8, 4096]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8x4096x4096 : S_.BroadcastsInDim S8x4096x4096 (![] : Fin 0 → Fin S8x4096x4096.rank)
  reducesTo_S8x4096x4096_S_d0_1_2 : S8x4096x4096.ReducesTo [0, 1, 2] S_
  reducesTo_S8x4096x4096_S8x4096_d1 : S8x4096x4096.ReducesTo [1] S8x4096
  bcast_S_S8x4096 : S_.BroadcastsInDim S8x4096 (![] : Fin 0 → Fin S8x4096.rank)
  reducesTo_S8x4096_S_d0_1 : S8x4096.ReducesTo [0, 1] S_

variable [Facts]

def fn_part1 {F : FTy → Type} [FloatOps F] (main_v13 : IVec S_ 1) (main_v14 : FVec F S8x4096 .f32) (main_v15 : FVec F S8x4096 .f32) : IVec S_ 1 :=
  let main_v16 : IVec S8x4096 1 := cmpf .une main_v14 main_v15
  let main_c_6 : IVec S_ 1 := constantI S_ 1 1#1
  let main_v17 : IVec S_ 1 := (fun x v => Host.reduce IntOp.andi x v reducesTo_S8x4096_S_d0_1 h_S_) main_v16 main_c_6
  let main_v18 : IVec S_ 1 := andi main_v13 main_v17
  main_v18

def fn {F : FTy → Type} [FloatOps F] (main_arg0 : FVec F S8x4096x3 .f32) (main_arg1 : FVec F S8x4096x3 .f32) (main_arg2 : FVec F S8x4096x4096 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  let main_v9 : FVec F S8x4096x4096 .f32 := Host.absf main_arg2
  let main_cst_2 : FVec F S_ .f32 := constant S_ .f32 0x7F800000#32
  let main_v10 : FVec F S8x4096x4096 .f32 := broadcastInDim S8x4096x4096 ![] bcast_S_S8x4096x4096 main_cst_2
  let main_v11 : IVec S8x4096x4096 1 := cmpf .olt main_v9 main_v10
  let main_c_3 : IVec S_ 1 := constantI S_ 1 1#1
  let main_v12 : IVec S_ 1 := (fun x v => Host.reduce IntOp.andi x v reducesTo_S8x4096x4096_S_d0_1_2 h_S_) main_v11 main_c_3
  let main_v13 : IVec S_ 1 := andi main_v8 main_v12
  let main_cst_4 : FVec F S_ .f32 := constant S_ .f32 0x00000000#32
  let main_v14 : FVec F S8x4096 .f32 := (fun x v => Host.reduceAdd x v reducesTo_S8x4096x4096_S8x4096_d1 h_S_) main_arg2 main_cst_4
  let main_cst_5 : FVec F S_ .f32 := constant S_ .f32 0x00000000#32
  let main_v15 : FVec F S8x4096 .f32 := broadcastInDim S8x4096 ![] bcast_S_S8x4096 main_cst_5
  fn_part1 (F := F) main_v13 main_v14 main_v15
-- ==== Kernel.lean ====
abbrev S8x4096x3 : Shape := ⟨3, ![8, 4096, 3]⟩
abbrev S8x4096x4096 : Shape := ⟨3, ![8, 4096, 4096]⟩
abbrev S8x4096x6 : Shape := ⟨3, ![8, 4096, 6]⟩
abbrev S8x1x4096 : Shape := ⟨3, ![8, 1, 4096]⟩
abbrev S1x2048x1024 : Shape := ⟨3, ![1, 2048, 1024]⟩
abbrev S1x1024x6 : Shape := ⟨3, ![1, 1024, 6]⟩
abbrev S1x2048x6 : Shape := ⟨3, ![1, 2048, 6]⟩
abbrev S1x1x4096 : Shape := ⟨3, ![1, 1, 4096]⟩
abbrev S2048x6 : Shape := ⟨2, ![2048, 6]⟩
abbrev S1x4096 : Shape := ⟨2, ![1, 4096]⟩
abbrev S2048x1024 : Shape := ⟨2, ![2048, 1024]⟩
abbrev S1024x6 : Shape := ⟨2, ![1024, 6]⟩
abbrev S1024 : Shape := ⟨1, ![1024]⟩
abbrev S1x1024 : Shape := ⟨2, ![1, 1024]⟩
abbrev S8x4096 : Shape := ⟨2, ![8, 4096]⟩
abbrev S_ : Shape := ⟨0, ![]⟩
abbrev S8x4096x1 : Shape := ⟨3, ![8, 4096, 1]⟩

abbrev nBuf : Space → Nat
  | .hbm => 23
  | .vmem => 10
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x4096, .f32⟩
  | .hbm, ⟨3, _⟩ => ⟨S8x4096x6, .f32⟩
  | .hbm, ⟨4, _⟩ => ⟨S8x4096x6, .f32⟩
  | .hbm, ⟨5, _⟩ => ⟨S8x1x4096, .f32⟩
  | .hbm, ⟨6, _⟩ => ⟨S8x4096, .f32⟩
  | .hbm, ⟨7, _⟩ => ⟨S8x4096x3, .f32⟩
  | .hbm, ⟨8, _⟩ => ⟨S8x4096x3, .f32⟩
  | .hbm, ⟨9, _⟩ => ⟨S_, .f32⟩
  | .hbm, ⟨10, _⟩ => ⟨S8x4096, .f32⟩
  | .hbm, ⟨11, _⟩ => ⟨S8x4096, .f32⟩
  | .hbm, ⟨12, _⟩ => ⟨S8x4096x1, .f32⟩
  | .hbm, ⟨13, _⟩ => ⟨S8x4096x3, .f32⟩
  | .hbm, ⟨14, _⟩ => ⟨S8x4096x3, .f32⟩
  | .hbm, ⟨15, _⟩ => ⟨S8x4096x3, .f32⟩
  | .hbm, ⟨16, _⟩ => ⟨S8x4096x3, .f32⟩
  | .hbm, ⟨17, _⟩ => ⟨S8x4096x3, .f32⟩
  | .hbm, ⟨18, _⟩ => ⟨S8x4096x3, .f32⟩
  | .hbm, ⟨19, _⟩ => ⟨S8x4096x3, .f32⟩
  | .hbm, ⟨20, _⟩ => ⟨S8x4096x3, .f32⟩
  | .hbm, ⟨21, _⟩ => ⟨S_, .f32⟩
  | .hbm, ⟨22, _⟩ => ⟨S_, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1024x6, .f32⟩
  | .local _ .vmem, ⟨3, _⟩ => ⟨S1x1024x6, .f32⟩
  | .local _ .vmem, ⟨4, _⟩ => ⟨S1x2048x6, .f32⟩
  | .local _ .vmem, ⟨5, _⟩ => ⟨S1x2048x6, .f32⟩
  | .local _ .vmem, ⟨6, _⟩ => ⟨S1x1x4096, .f32⟩
  | .local _ .vmem, ⟨7, _⟩ => ⟨S1x1x4096, .f32⟩
  | .local _ .vmem, ⟨8, _⟩ => ⟨S2048x6, .f32⟩
  | .local _ .vmem, ⟨9, _⟩ => ⟨S1x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_mult1 (i : grid0.Coords) : BitVec 32 :=
  let arg2 : BitVec 32 := BitVec.ofNat 32 (i 2).val
  let c1024_i32 : BitVec 32 := 1024#32
  let v14 : BitVec 32 := Scalar.muli arg2 c1024_i32
  v14
def k0_off1 (i : grid0.Coords) : Fin 2 → Nat :=
  let c0_9 : Index := 0#32
  let arg2 : BitVec 32 := BitVec.ofNat 32 (i 2).val
  let c1024_i32 : BitVec 32 := 1024#32
  let v14 : BitVec 32 := Scalar.muli arg2 c1024_i32
  let v15 : BitVec 32 := v14
  let v16 : Index := Scalar.indexCast v15
  ![0, v16.toNat]
def k0_cond3 (i : grid0.Coords) : BitVec 1 :=
  let arg2 : BitVec 32 := BitVec.ofNat 32 (i 2).val
  let c3_i32 : BitVec 32 := 3#32
  let v31 : BitVec 1 := Scalar.cmpi .eq arg2 c3_i32
  let v32 : BitVec 32 := Scalar.extui v31
  let c0_i32_16 : BitVec 32 := 0#32
  let v33 : BitVec 1 := Scalar.cmpi .ne v32 c0_i32_16
  v33

def k0_cond4 (i : grid0.Coords) : BitVec 1 :=
  let arg1 : BitVec 32 := BitVec.ofNat 32 (i 1).val
  let c1_i32 : BitVec 32 := 1#32
  let v34 : BitVec 1 := Scalar.cmpi .eq arg1 c1_i32
  let arg2 : BitVec 32 := BitVec.ofNat 32 (i 2).val
  let c3_i32_17 : BitVec 32 := 3#32
  let v35 : BitVec 1 := Scalar.cmpi .eq arg2 c3_i32_17
  let v36 : BitVec 1 := Scalar.andi v34 v35
  let v37 : BitVec 32 := Scalar.extui v36
  let c0_i32_18 : BitVec 32 := 0#32
  let v38 : BitVec 1 := Scalar.cmpi .ne v37 c0_i32_18
  v38

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  concatenates_S8x4096x3_S8x4096x3_S8x4096x6_d2 : Shape.Concatenates [S8x4096x3, S8x4096x3] S8x4096x6 2
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S2048x6_S2048x6_0_0 : ∀ a, (![0, 0] : Fin 2 → Nat) a + S2048x6.size a ≤ S2048x6.size a
  h_S2048x6 : 0 < S2048x6.numel
  shapeCasts_S2048x6_S2048x6 : S2048x6.ShapeCasts S2048x6
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1024x6_S1x1024x6_0_0_0 : ∀ a, (![0, 0, 0] : Fin 3 → Nat) a + S1x1024x6.size a ≤ S1x1024x6.size a
  h_S1x1024x6 : 0 < S1x1024x6.numel
  shapeCasts_S1x1024x6_S1024x6 : S1x1024x6.ShapeCasts S1024x6
  reduces_S2048x1024_S1024 : S2048x1024.Reduces [0] S1024
  shapeCasts_S1024_S1x1024 : S1024.ShapeCasts S1x1024
  h_S1x1024 : 0 < S1x1024.numel
  shapeCasts_S1x1024_S1x1024 : S1x1024.ShapeCasts S1x1024
  bitsLt_bf16_f32 : FTy.bits .bf16 < FTy.bits .f32
  inb_S1x2048x6_S1x2048x6_0_0_0 : ∀ a, (![0, 0, 0] : Fin 3 → Nat) a + S1x2048x6.size a ≤ S1x2048x6.size a
  h_S1x2048x6 : 0 < S1x2048x6.numel
  shapeCasts_S1x2048x6_S2048x6 : S1x2048x6.ShapeCasts S2048x6
  shapeCasts_S2048x6_S1x2048x6 : S2048x6.ShapeCasts S1x2048x6
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  shapeCasts_S8x1x4096_S8x4096 : S8x1x4096.ShapeCasts S8x4096
  slices_S8x4096x6_S8x4096x3_0_0_0 : S8x4096x6.Slices ![0, 0, 0] S8x4096x3
  slices_S8x4096x6_S8x4096x3_0_0_3 : S8x4096x6.Slices ![0, 0, 3] S8x4096x3
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x3_0_1_2 : S8x4096x1.BroadcastsInDim S8x4096x3 (![0, 1, 2] : Fin 3 → Fin S8x4096x3.rank)
  reducesTo_S8x4096x3_S_d0_1_2 : S8x4096x3.ReducesTo [0, 1, 2] S_
  h_S_ : 0 < S_.numel
  dot_S2048x1024_S1024x6_S2048x6_1_0_0_1_n_n_wf : DotDims.WF S2048x1024 S1024x6 S2048x6 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x1024.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x4096x4096.size a
  hwx0_0 : ∀ i : grid0.Coords, EltTy.bits .f32 = 32 ∨ (Rect.block (s := S8x4096x4096) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x6.size a ≤ S8x4096x6.size a
  hwx0_1 : ∀ i : grid0.Coords, EltTy.bits .f32 = 32 ∨ (Rect.block (s := S8x4096x6) S1x1024x6.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x6.size a ≤ S8x4096x6.size a
  hwx0_2 : ∀ i : grid0.Coords, EltTy.bits .f32 = 32 ∨ (Rect.block (s := S8x4096x6) S1x2048x6.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

def dot_S2048x1024_S1024x6_S2048x6_1_0_0_1_n_n : DotDims S2048x1024 S1024x6 S2048x6 where
  lhsContracting := [1]
  rhsContracting := [0]
  lhsNonContracting := [0]
  rhsNonContracting := [1]
  lhsBatch := []
  rhsBatch := []
  wf := dot_S2048x1024_S1024x6_S2048x6_1_0_0_1_n_n_wf

abbrev win0_0 : Pipeline.Window sig grid0 :=
  Pipeline.Window.ofSpec (Memref.whole main_arg2) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x2048x6.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩

abbrev nBuf : Space → Nat
  | .hbm => 21
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x4096, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S8x4096x1, .f32⟩
  | .hbm, ⟨7, _⟩ => ⟨S8x4096x3, .f32⟩
  | .hbm, ⟨8, _⟩ => ⟨S8x4096x3, .f32⟩
  | .hbm, ⟨9, _⟩ => ⟨S8x4096x3, .f32⟩
  | .hbm, ⟨10, _⟩ => ⟨S_, .f32⟩
  | .hbm, ⟨11, _⟩ => ⟨S8x4096, .f32⟩
  | .hbm, ⟨12, _⟩ => ⟨S8x4096x3, .f32⟩
  | .hbm, ⟨13, _⟩ => ⟨S8x4096x1, .f32⟩
  | .hbm, ⟨14, _⟩ => ⟨S8x4096x3, .f32⟩
  | .hbm, ⟨15, _⟩ => ⟨S8x4096x3, .f32⟩
  | .hbm, ⟨16, _⟩ => ⟨S8x4096x3, .f32⟩
  | .hbm, ⟨17, _⟩ => ⟨S8x4096x3, .f32⟩
  | .hbm, ⟨18, _⟩ => ⟨S8x4096x3, .f32⟩
  | .hbm, ⟨19, _⟩ => ⟨S_, .f32⟩
  | .hbm, ⟨20, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S8x4096x4096_S8x4096_d1 : S8x4096x4096.ReducesTo [1] S8x4096
  h_S_ : 0 < S_.numel
  bcast_S8x4096_S8x4096x1_0_1 : S8x4096.BroadcastsInDim S8x4096x1 (![0, 1] : Fin 2 → Fin S8x4096x1.rank)
  bcast_S8x4096x1_S8x4096x3_0_1_2 : S8x4096x1.BroadcastsInDim S8x4096x3 (![0, 1, 2] : Fin 3 → Fin S8x4096x3.rank)
  reducesTo_S8x4096x3_S_d0_1_2 : S8x4096x3.ReducesTo [0, 1, 2] S_
  dot_S8x4096x4096_S8x4096x3_S8x4096x3_2_1_1_2_0_0_wf : DotDims.WF S8x4096x4096 S8x4096x3 S8x4096x3 [2] [1] [1] [2] [0] [0]

variable [Facts₀]

def dot_S8x4096x4096_S8x4096x3_S8x4096x3_2_1_1_2_0_0 : DotDims S8x4096x4096 S8x4096x3 S8x4096x3 where
  lhsContracting := [2]
  rhsContracting := [1]
  lhsNonContracting := [1]
  rhsNonContracting := [2]
  lhsBatch := [0]
  rhsBatch := [0]
  wf := dot_S8x4096x4096_S8x4096x3_S8x4096x3_2_1_1_2_0_0_wf

class Facts : Prop extends Facts₀ where

variable [Facts]
-- ==== Proof.DivLaw.lean ====
/-
  A quotient by a nonzero extended real is the product with the reciprocal: off zero both
  `x / d` and `1 / d` are products with `d⁻¹`, so `x / d = x · (1 / d)` whatever `x` is
  (infinite values included). At `d = 0` the law fails exactly when `x = 0` (`0 / 0` reads `⊥`,
  `0 · (1 / 0) = 0 · ⊤ = 0`), which is why the degree must be nonzero.
-/
import Idealize.ShloMosaic.PureOps.Ideal

namespace Cert.Centroid

open Idealize.ShloMosaic

/-- `x / d = x · (1 / d)` on the extended reals for every `d ≠ 0`. -/
theorem div_eq_mul_one_div (x d : EReal) (hd : d ≠ 0) :
    Ideal.div x d = x * Ideal.div 1 d := by
  rw [Ideal.div, Ideal.div, if_neg hd, if_neg hd, one_mul]

end Cert.Centroid
-- ==== Proof.CentroidLaw.lean ====
/-
  The two spellings of a centroid, on the extended reals. With the neighbour sum
  `n = Σ_j A[b, i, j] · P[b, j, e]` and the degree `d = Σ_r A[b, r, i]` (a column sum: the degree
  of node `i` is taken down column `i`), one program forms `n · (1 / d)` and the other `n / d`.
  They agree wherever `d ≠ 0`, whatever `n` is.
-/
import Idealize.ShloMosaic.PureOps.Ideal
import Idealize.ShloMosaic.Lib.ValueIdx
import proofs.«107697_j35141422416050_1_alg».proof.Proof.DivLaw

noncomputable section

namespace Cert.Centroid

open Idealize.ShloMosaic Idealize.ShloMosaic.ValueIdx
open scoped BigOperators

/-- The adjacency's shape and a prediction's shape. -/
abbrev ShAdj : Shape := ⟨3, ![8, 4096, 4096]⟩
abbrev ShP : Shape := ⟨3, ![8, 4096, 3]⟩

/-- The neighbour sum of prediction `P` at node `(b, i)`, feature `e`. -/
def nbr (A : ShAdj.Idx → EReal) (P : ShP.Idx → EReal) (y : ShP.Idx) : EReal :=
  ∑ j : Fin 4096, A (ix3 (y 0) (y 1) j) * P (ix3 (y 0) j (y 2))

/-- The degree of node `(b, i)`: the sum down column `i` of `A[b]`. -/
def deg (A : ShAdj.Idx → EReal) (y : ShP.Idx) : EReal :=
  ∑ r : Fin 4096, A (ix3 (y 0) r (y 1))

/-- The centroid as neighbour sum times reciprocal degree. -/
def centMul (A : ShAdj.Idx → EReal) (P : ShP.Idx → EReal) : ShP.Idx → EReal :=
  fun y => nbr A P y * Ideal.div 1 (deg A y)

/-- The centroid as neighbour sum over degree. -/
def centDiv (A : ShAdj.Idx → EReal) (P : ShP.Idx → EReal) : ShP.Idx → EReal :=
  fun y => Ideal.div (nbr A P y) (deg A y)

/-- Where no degree vanishes the two spellings are one function. -/
theorem centMul_eq_centDiv (A : ShAdj.Idx → EReal) (P : ShP.Idx → EReal)
    (h : ∀ (b : Fin 8) (k : Fin 4096), (∑ r : Fin 4096, A (ix3 b r k)) ≠ 0) :
    centMul A P = centDiv A P :=
  funext fun y => (div_eq_mul_one_div (nbr A P y) (deg A y) (h (y 0) (y 1))).symm

end Cert.Centroid

end
-- ==== Proof.Pieces.lean ====
/-
  What one grid point's body leaves in the two accumulators it carries and in the two output
  blocks, case by case of its four conditionals, as the body's own arithmetic terms.

  The body, at every point: (if the batch's sweep starts here) zero the degree accumulator;
  (if a row tile's sweep starts here) zero the neighbour accumulator; add the tile's column sums
  into the stretch of the degree accumulator that the column tile names; add the tile's product
  with the features' row tile into the neighbour accumulator; (if the row tile's sweep ends
  here) copy the neighbour accumulator to its output block; (if the batch's sweep ends here)
  copy the degree accumulator to its output block.
-/
import proofs.«107697_j35141422416050_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Centroid

open Cert.KernelIdeal Cert.KernelIdeal.Gen

variable {F : FTy → Type} [FloatOps F]

/-- The stretch of the degree accumulator that the point's column tile names: one row, 1024 lanes from the tile's first column. -/
abbrev degRect (i : grid0.Coords) := Rect.unit (s := S1x4096) (k0_off1 i) S1x1024.size (k0_off1_inb i)

variable (c : Dev nD) (i : grid0.Coords) (arg3 : Memref sig .tc .vmem S1x2048x1024 .f32) (harg3 : arg3.IsWhole) (arg4 : Memref sig .tc .vmem S1x1024x6 .f32) (harg4 : arg4.IsWhole) (arg5 : Memref sig .tc .vmem S1x2048x6 .f32) (harg5 : arg5.IsWhole) (arg6 : Memref sig .tc .vmem S1x1x4096 .f32) (harg6 : arg6.IsWhole) (arg7 : Memref sig .tc .vmem S2048x6 .f32) (harg7 : arg7.IsWhole) (arg8 : Memref sig .tc .vmem S1x4096 .f32) (harg8 : arg8.IsWhole)
variable (x0 : Vec F S1x2048x1024 .f32) (x1 : Vec F S1x1024x6 .f32)

/-- The zero offsets of a rank-2 rectangle, as the constant function. -/
private theorem hz2 : (![0, 0] : Fin 2 → Nat) = fun _ => 0 := funext fun a => by fin_cases a <;> rfl

/-- The zero offsets of a rank-3 rectangle, as the constant function. -/
private theorem hz3 : (![0, 0, 0] : Fin 3 → Nat) = fun _ => 0 := funext fun a => by fin_cases a <;> rfl

/-! ### Case A -/

/-- Case A: the neighbour accumulator ends at its contents on entry (here the zero block just stored) plus the tile product. -/
theorem acc_A (hc0 : cond0_0 i) (hc1 : cond0_1 i) (hc2 : ¬cond0_2 i) (hc3 : ¬cond0_3 i)  :
    sout0_A_0 c i arg3 harg3 arg4 harg4 arg5 harg5 arg6 harg6 arg7 harg7 arg8 harg8 hc0 hc1 hc2 hc3 x0 x1 = k0_pay7 x0 x1 (k0_pay4 (F := F)) := by
  unfold sout0_A_0
  rw [View.read_writes_junk_eq_canon]
  unfold kernelRun0_A
  dsimp only
  sl_unfold_words
  rw [View.canon_cons_unit_zero (S := S2048x6) hz2, View.readCov_unit_zero (S := S2048x6) _ hz2]
  simp only [View.readAt_eq_ld, harg3.read_unread, harg4.read_unread, harg7.read_unread, harg8.read_unread, View.ld_unit_zero (S := S1x2048x1024) hz3, View.ld_unit_zero (S := S1x1024x6) hz3, View.ld_unit_zero (S := S2048x6) hz2]

/-- Case A: inside the updated stretch the degree accumulator holds the update's payload. -/
theorem deg_A_in (hc0 : cond0_0 i) (hc1 : cond0_1 i) (hc2 : ¬cond0_2 i) (hc3 : ¬cond0_3 i)  (x : S1x1024.Idx) :
    sout0_A_1 c i arg3 harg3 arg4 harg4 arg5 harg5 arg6 harg6 arg7 harg7 arg8 harg8 hc0 hc1 hc2 hc3 x0 x1 ((degRect i).emb x) = k0_pay6 x0 (View.ld (k0_pay3 (F := F)) (degRect i)) x := by
  unfold sout0_A_1 kernelRun0_A
  dsimp only
  sl_unfold_words
  rw [View.read_writes_junk_eq_canon]
  refine (View.canon_cons_emb (degRect i) _ _ x).trans ?_
  simp only [View.readAt_eq_ld, harg3.read_unread, View.ld_unit_zero (S := S1x2048x1024) hz3, View.read_writes_junk_eq_canon, View.canon_unit_zero (S := S1x4096) hz2]
  rfl

/-- Case A: outside the updated stretch the degree accumulator keeps what it held. -/
theorem deg_A_out (hc0 : cond0_0 i) (hc1 : cond0_1 i) (hc2 : ¬cond0_2 i) (hc3 : ¬cond0_3 i)  (y : S1x4096.Idx) (hy : y ∉ (degRect i).set) :
    sout0_A_1 c i arg3 harg3 arg4 harg4 arg5 harg5 arg6 harg6 arg7 harg7 arg8 harg8 hc0 hc1 hc2 hc3 x0 x1 y = (k0_pay3 (F := F)) y := by
  unfold sout0_A_1 kernelRun0_A
  dsimp only
  sl_unfold_words
  rw [View.read_writes_junk_eq_canon]
  refine (View.canon_cons_of_not_mem ⟨degRect i, _⟩ _ hy).trans ?_
  rw [View.canon_unit_zero (S := S1x4096) hz2]

/-! ### Case B -/

/-- Case B: the neighbour accumulator ends at its contents on entry plus the tile product. -/
theorem acc_B (hc0 : ¬cond0_0 i) (hc1 : ¬cond0_1 i) (hc2 : ¬cond0_2 i) (hc3 : ¬cond0_3 i) (xs0 : Vec F S2048x6 .f32) (xs1 : Vec F S1x4096 .f32) :
    sout0_B_0 c i arg3 harg3 arg4 harg4 arg5 harg5 arg6 harg6 arg7 harg7 arg8 harg8 hc0 hc1 hc2 hc3 x0 x1 xs0 xs1 = k0_pay7 x0 x1 xs0 := by
  unfold sout0_B_0
  rw [View.read_writes_junk_eq_canon]
  unfold kernelRun0_B
  dsimp only
  sl_unfold_words
  rw [View.canon_unit_zero (S := S2048x6) hz2]
  simp only [View.readAt_eq_ld, harg3.read_unread, harg4.read_unread, harg7.read_unread, harg8.read_unread, View.ld_unit_zero (S := S1x2048x1024) hz3, View.ld_unit_zero (S := S1x1024x6) hz3, View.ld_unit_zero (S := S2048x6) hz2]

/-- Case B: inside the updated stretch the degree accumulator holds the update's payload. -/
theorem deg_B_in (hc0 : ¬cond0_0 i) (hc1 : ¬cond0_1 i) (hc2 : ¬cond0_2 i) (hc3 : ¬cond0_3 i) (xs0 : Vec F S2048x6 .f32) (xs1 : Vec F S1x4096 .f32) (x : S1x1024.Idx) :
    sout0_B_1 c i arg3 harg3 arg4 harg4 arg5 harg5 arg6 harg6 arg7 harg7 arg8 harg8 hc0 hc1 hc2 hc3 x0 x1 xs0 xs1 ((degRect i).emb x) = k0_pay6 x0 (View.ld xs1 (degRect i)) x := by
  unfold sout0_B_1 kernelRun0_B
  dsimp only
  sl_unfold_words
  refine (View.read_writes_cons_emb arg8.view _ (degRect i) _ [] x).trans ?_
  simp only [View.readAt_eq_ld, harg3.read_unread, harg4.read_unread, harg7.read_unread, harg8.read_unread, View.ld_unit_zero (S := S1x2048x1024) hz3, View.ld_unit_zero (S := S1x1024x6) hz3, View.ld_unit_zero (S := S2048x6) hz2]
  rfl

/-- Case B: outside the updated stretch the degree accumulator keeps what it held. -/
theorem deg_B_out (hc0 : ¬cond0_0 i) (hc1 : ¬cond0_1 i) (hc2 : ¬cond0_2 i) (hc3 : ¬cond0_3 i) (xs0 : Vec F S2048x6 .f32) (xs1 : Vec F S1x4096 .f32) (y : S1x4096.Idx) (hy : y ∉ (degRect i).set) :
    sout0_B_1 c i arg3 harg3 arg4 harg4 arg5 harg5 arg6 harg6 arg7 harg7 arg8 harg8 hc0 hc1 hc2 hc3 x0 x1 xs0 xs1 y = xs1 y := by
  unfold sout0_B_1 kernelRun0_B
  dsimp only
  sl_unfold_words
  rw [View.read_writes_apply_of_forall_not_mem _ _ y _ (fun p hp => by obtain rfl := List.mem_singleton.mp hp; exact hy), harg8.read_unread]

/-! ### Case C -/

/-- Case C: the neighbour accumulator ends at its contents on entry plus the tile product. -/
theorem acc_C (hc0 : ¬cond0_0 i) (hc1 : ¬cond0_1 i) (hc2 : cond0_2 i) (hc3 : ¬cond0_3 i) (xs0 : Vec F S2048x6 .f32) (xs1 : Vec F S1x4096 .f32) :
    sout0_C_0 c i arg3 harg3 arg4 harg4 arg5 harg5 arg6 harg6 arg7 harg7 arg8 harg8 hc0 hc1 hc2 hc3 x0 x1 xs0 xs1 = k0_pay7 x0 x1 xs0 := by
  unfold sout0_C_0
  rw [View.read_writes_junk_eq_canon]
  unfold kernelRun0_C
  dsimp only
  sl_unfold_words
  rw [View.canon_unit_zero (S := S2048x6) hz2]
  simp only [View.readAt_eq_ld, harg3.read_unread, harg4.read_unread, harg7.read_unread, harg8.read_unread, View.ld_unit_zero (S := S1x2048x1024) hz3, View.ld_unit_zero (S := S1x1024x6) hz3, View.ld_unit_zero (S := S2048x6) hz2]

/-- Case C: inside the updated stretch the degree accumulator holds the update's payload. -/
theorem deg_C_in (hc0 : ¬cond0_0 i) (hc1 : ¬cond0_1 i) (hc2 : cond0_2 i) (hc3 : ¬cond0_3 i) (xs0 : Vec F S2048x6 .f32) (xs1 : Vec F S1x4096 .f32) (x : S1x1024.Idx) :
    sout0_C_1 c i arg3 harg3 arg4 harg4 arg5 harg5 arg6 harg6 arg7 harg7 arg8 harg8 hc0 hc1 hc2 hc3 x0 x1 xs0 xs1 ((degRect i).emb x) = k0_pay6 x0 (View.ld xs1 (degRect i)) x := by
  unfold sout0_C_1 kernelRun0_C
  dsimp only
  sl_unfold_words
  refine (View.read_writes_cons_emb arg8.view _ (degRect i) _ [] x).trans ?_
  simp only [View.readAt_eq_ld, harg3.read_unread, harg4.read_unread, harg7.read_unread, harg8.read_unread, View.ld_unit_zero (S := S1x2048x1024) hz3, View.ld_unit_zero (S := S1x1024x6) hz3, View.ld_unit_zero (S := S2048x6) hz2]
  rfl

/-- Case C: outside the updated stretch the degree accumulator keeps what it held. -/
theorem deg_C_out (hc0 : ¬cond0_0 i) (hc1 : ¬cond0_1 i) (hc2 : cond0_2 i) (hc3 : ¬cond0_3 i) (xs0 : Vec F S2048x6 .f32) (xs1 : Vec F S1x4096 .f32) (y : S1x4096.Idx) (hy : y ∉ (degRect i).set) :
    sout0_C_1 c i arg3 harg3 arg4 harg4 arg5 harg5 arg6 harg6 arg7 harg7 arg8 harg8 hc0 hc1 hc2 hc3 x0 x1 xs0 xs1 y = xs1 y := by
  unfold sout0_C_1 kernelRun0_C
  dsimp only
  sl_unfold_words
  rw [View.read_writes_apply_of_forall_not_mem _ _ y _ (fun p hp => by obtain rfl := List.mem_singleton.mp hp; exact hy), harg8.read_unread]

/-- Case C: the neighbour output block is the accumulator after this point's product. -/
theorem out2_C (hc0 : ¬cond0_0 i) (hc1 : ¬cond0_1 i) (hc2 : cond0_2 i) (hc3 : ¬cond0_3 i) (xs0 : Vec F S2048x6 .f32) (xs1 : Vec F S1x4096 .f32) :
    out0_C_2 c i arg3 harg3 arg4 harg4 arg5 harg5 arg6 harg6 arg7 harg7 arg8 harg8 hc0 hc1 hc2 hc3 x0 x1 xs0 xs1 = k0_pay1 (sout0_C_0 c i arg3 harg3 arg4 harg4 arg5 harg5 arg6 harg6 arg7 harg7 arg8 harg8 hc0 hc1 hc2 hc3 x0 x1 xs0 xs1) := by
  rw [acc_C]
  unfold out0_C_2
  rw [View.read_writes_junk_eq_canon]
  unfold kernelRun0_C
  dsimp only
  sl_unfold_words
  rw [View.canon_unit_zero (S := S1x2048x6) hz3, View.readCov_unit_zero (S := S2048x6) _ hz2]
  simp only [View.readAt_eq_ld, harg3.read_unread, harg4.read_unread, harg7.read_unread, harg8.read_unread, View.ld_unit_zero (S := S1x2048x1024) hz3, View.ld_unit_zero (S := S1x1024x6) hz3, View.ld_unit_zero (S := S2048x6) hz2]

/-! ### Case D -/

/-- Case D: the neighbour accumulator ends at its contents on entry (here the zero block just stored) plus the tile product. -/
theorem acc_D (hc0 : ¬cond0_0 i) (hc1 : cond0_1 i) (hc2 : ¬cond0_2 i) (hc3 : ¬cond0_3 i) (xs1 : Vec F S1x4096 .f32) :
    sout0_D_0 c i arg3 harg3 arg4 harg4 arg5 harg5 arg6 harg6 arg7 harg7 arg8 harg8 hc0 hc1 hc2 hc3 x0 x1 xs1 = k0_pay7 x0 x1 (k0_pay4 (F := F)) := by
  unfold sout0_D_0
  rw [View.read_writes_junk_eq_canon]
  unfold kernelRun0_D
  dsimp only
  sl_unfold_words
  rw [View.canon_cons_unit_zero (S := S2048x6) hz2, View.readCov_unit_zero (S := S2048x6) _ hz2]
  simp only [View.readAt_eq_ld, harg3.read_unread, harg4.read_unread, harg7.read_unread, harg8.read_unread, View.ld_unit_zero (S := S1x2048x1024) hz3, View.ld_unit_zero (S := S1x1024x6) hz3, View.ld_unit_zero (S := S2048x6) hz2]

/-- Case D: inside the updated stretch the degree accumulator holds the update's payload. -/
theorem deg_D_in (hc0 : ¬cond0_0 i) (hc1 : cond0_1 i) (hc2 : ¬cond0_2 i) (hc3 : ¬cond0_3 i) (xs1 : Vec F S1x4096 .f32) (x : S1x1024.Idx) :
    sout0_D_1 c i arg3 harg3 arg4 harg4 arg5 harg5 arg6 harg6 arg7 harg7 arg8 harg8 hc0 hc1 hc2 hc3 x0 x1 xs1 ((degRect i).emb x) = k0_pay6 x0 (View.ld xs1 (degRect i)) x := by
  unfold sout0_D_1 kernelRun0_D
  dsimp only
  sl_unfold_words
  refine (View.read_writes_cons_emb arg8.view _ (degRect i) _ [] x).trans ?_
  simp only [View.readAt_eq_ld, harg3.read_unread, harg4.read_unread, harg7.read_unread, harg8.read_unread, View.ld_unit_zero (S := S1x2048x1024) hz3, View.ld_unit_zero (S := S1x1024x6) hz3, View.ld_unit_zero (S := S2048x6) hz2]
  rfl

/-- Case D: outside the updated stretch the degree accumulator keeps what it held. -/
theorem deg_D_out (hc0 : ¬cond0_0 i) (hc1 : cond0_1 i) (hc2 : ¬cond0_2 i) (hc3 : ¬cond0_3 i) (xs1 : Vec F S1x4096 .f32) (y : S1x4096.Idx) (hy : y ∉ (degRect i).set) :
    sout0_D_1 c i arg3 harg3 arg4 harg4 arg5 harg5 arg6 harg6 arg7 harg7 arg8 harg8 hc0 hc1 hc2 hc3 x0 x1 xs1 y = xs1 y := by
  unfold sout0_D_1 kernelRun0_D
  dsimp only
  sl_unfold_words
  rw [View.read_writes_apply_of_forall_not_mem _ _ y _ (fun p hp => by obtain rfl := List.mem_singleton.mp hp; exact hy), harg8.read_unread]

/-! ### Case E -/

/-- Case E: the neighbour accumulator ends at its contents on entry plus the tile product. -/
theorem acc_E (hc0 : ¬cond0_0 i) (hc1 : ¬cond0_1 i) (hc2 : cond0_2 i) (hc3 : cond0_3 i) (xs0 : Vec F S2048x6 .f32) (xs1 : Vec F S1x4096 .f32) :
    sout0_E_0 c i arg3 harg3 arg4 harg4 arg5 harg5 arg6 harg6 arg7 harg7 arg8 harg8 hc0 hc1 hc2 hc3 x0 x1 xs0 xs1 = k0_pay7 x0 x1 xs0 := by
  unfold sout0_E_0
  rw [View.read_writes_junk_eq_canon]
  unfold kernelRun0_E
  dsimp only
  sl_unfold_words
  rw [View.canon_unit_zero (S := S2048x6) hz2]
  simp only [View.readAt_eq_ld, harg3.read_unread, harg4.read_unread, harg7.read_unread, harg8.read_unread, View.ld_unit_zero (S := S1x2048x1024) hz3, View.ld_unit_zero (S := S1x1024x6) hz3, View.ld_unit_zero (S := S2048x6) hz2]

/-- Case E: inside the updated stretch the degree accumulator holds the update's payload. -/
theorem deg_E_in (hc0 : ¬cond0_0 i) (hc1 : ¬cond0_1 i) (hc2 : cond0_2 i) (hc3 : cond0_3 i) (xs0 : Vec F S2048x6 .f32) (xs1 : Vec F S1x4096 .f32) (x : S1x1024.Idx) :
    sout0_E_1 c i arg3 harg3 arg4 harg4 arg5 harg5 arg6 harg6 arg7 harg7 arg8 harg8 hc0 hc1 hc2 hc3 x0 x1 xs0 xs1 ((degRect i).emb x) = k0_pay6 x0 (View.ld xs1 (degRect i)) x := by
  unfold sout0_E_1 kernelRun0_E
  dsimp only
  sl_unfold_words
  refine (View.read_writes_cons_emb arg8.view _ (degRect i) _ [] x).trans ?_
  simp only [View.readAt_eq_ld, harg3.read_unread, harg4.read_unread, harg7.read_unread, harg8.read_unread, View.ld_unit_zero (S := S1x2048x1024) hz3, View.ld_unit_zero (S := S1x1024x6) hz3, View.ld_unit_zero (S := S2048x6) hz2]
  rfl

/-- Case E: outside the updated stretch the degree accumulator keeps what it held. -/
theorem deg_E_out (hc0 : ¬cond0_0 i) (hc1 : ¬cond0_1 i) (hc2 : cond0_2 i) (hc3 : cond0_3 i) (xs0 : Vec F S2048x6 .f32) (xs1 : Vec F S1x4096 .f32) (y : S1x4096.Idx) (hy : y ∉ (degRect i).set) :
    sout0_E_1 c i arg3 harg3 arg4 harg4 arg5 harg5 arg6 harg6 arg7 harg7 arg8 harg8 hc0 hc1 hc2 hc3 x0 x1 xs0 xs1 y = xs1 y := by
  unfold sout0_E_1 kernelRun0_E
  dsimp only
  sl_unfold_words
  rw [View.read_writes_apply_of_forall_not_mem _ _ y _ (fun p hp => by obtain rfl := List.mem_singleton.mp hp; exact hy), harg8.read_unread]

/-- Case E: the neighbour output block is the accumulator after this point's product. -/
theorem out2_E (hc0 : ¬cond0_0 i) (hc1 : ¬cond0_1 i) (hc2 : cond0_2 i) (hc3 : cond0_3 i) (xs0 : Vec F S2048x6 .f32) (xs1 : Vec F S1x4096 .f32) :
    out0_E_2 c i arg3 harg3 arg4 harg4 arg5 harg5 arg6 harg6 arg7 harg7 arg8 harg8 hc0 hc1 hc2 hc3 x0 x1 xs0 xs1 = k0_pay1 (sout0_E_0 c i arg3 harg3 arg4 harg4 arg5 harg5 arg6 harg6 arg7 harg7 arg8 harg8 hc0 hc1 hc2 hc3 x0 x1 xs0 xs1) := by
  rw [acc_E]
  unfold out0_E_2
  rw [View.read_writes_junk_eq_canon]
  unfold kernelRun0_E
  dsimp only
  sl_unfold_words
  rw [View.canon_unit_zero (S := S1x2048x6) hz3, View.readCov_unit_zero (S := S2048x6) _ hz2]
  simp only [View.readAt_eq_ld, harg3.read_unread, harg4.read_unread, harg7.read_unread, harg8.read_unread, View.ld_unit_zero (S := S1x2048x1024) hz3, View.ld_unit_zero (S := S1x1024x6) hz3, View.ld_unit_zero (S := S2048x6) hz2]

/-- Case E: the degree output block is the accumulator after this point's update. -/
theorem out3_E (hc0 : ¬cond0_0 i) (hc1 : ¬cond0_1 i) (hc2 : cond0_2 i) (hc3 : cond0_3 i) (xs0 : Vec F S2048x6 .f32) (xs1 : Vec F S1x4096 .f32) :
    out0_E_3 c i arg3 harg3 arg4 harg4 arg5 harg5 arg6 harg6 arg7 harg7 arg8 harg8 hc0 hc1 hc2 hc3 x0 x1 xs0 xs1 = k0_pay2 (sout0_E_1 c i arg3 harg3 arg4 harg4 arg5 harg5 arg6 harg6 arg7 harg7 arg8 harg8 hc0 hc1 hc2 hc3 x0 x1 xs0 xs1) := by
  unfold out0_E_3 sout0_E_1
  rw [View.read_writes_junk_eq_canon]
  unfold kernelRun0_E
  dsimp only
  sl_unfold_words
  rw [View.canon_unit_zero (S := S1x1x4096) hz3]
  simp only [View.readAt_eq_ld, View.ld_unit_zero (S := S1x4096) hz2]

end Cert.KernelIdeal.Centroid

end
-- ==== Proof.Steps.lean ====
/-
  One grid point's effect on the carried accumulators and on the output blocks, for every point
  at once: whichever of the five cases the point falls in, the neighbour accumulator ends at its
  contents on entry plus the tile product, the degree accumulator changes only on the stretch
  the column tile names, where the tile's column sums are added, and an output block written at
  the point is the corresponding accumulator as the point leaves it. "On entry" means the zero
  block at the first point of a sweep (a row tile's sweep for the neighbour accumulator, a
  batch's for the degree accumulator) and what the point before left otherwise.
-/
import proofs.«107697_j35141422416050_1_alg».proof.Proof.Pieces

set_option maxRecDepth 16384

noncomputable section

open Idealize.ShloMosaic Idealize.ShloMosaic.TcCoe Idealize.SL.Sem

namespace Cert.KernelIdeal.Centroid

open Cert.KernelIdeal Cert.KernelIdeal.Gen

variable {F : FTy → Type} [FloatOps F]
variable (m : (ℓ : Loc nD τ sig) → Buf (Elt F) ℓ) (c : Dev nD)

theorem pred_lt (t : Fin cfg0.N) : t.val - 1 < cfg0.N := Nat.lt_of_le_of_lt (Nat.sub_le _ _) t.isLt

/-- The neighbour accumulator as point `t` finds it: zeroed at a row tile's first column tile, else as the point before left it. -/
def accBefore (t : Fin cfg0.N) : Vec F S2048x6 .f32 :=
  if t.val % 4 = 0 then k0_pay4 (F := F) else (outsAt0 m c (t.val - 1) (pred_lt t)).2.2.1

/-- The degree accumulator as point `t` finds it: zeroed at a batch's first point, else as the point before left it. -/
def degBefore (t : Fin cfg0.N) : Vec F S1x4096 .f32 :=
  if t.val % 8 = 0 then k0_pay3 (F := F) else (outsAt0 m c (t.val - 1) (pred_lt t)).2.2.2

/-- Every point falls in exactly one of five cases of the four tests on its linear position: a batch's first point, a later row tile's first point, a row tile's last point that is not the batch's last, the batch's last point, or none of these. -/
private theorem cases5 (t : Fin cfg0.N) (P : Prop)
    (hA : t.val % 8 = 0 → t.val % 4 = 0 → ¬t.val % 4 = 3 → ¬t.val % 8 = 7 → P)
    (hB : ¬t.val % 8 = 0 → ¬t.val % 4 = 0 → ¬t.val % 4 = 3 → ¬t.val % 8 = 7 → P)
    (hC : ¬t.val % 8 = 0 → ¬t.val % 4 = 0 → t.val % 4 = 3 → ¬t.val % 8 = 7 → P)
    (hD : ¬t.val % 8 = 0 → t.val % 4 = 0 → ¬t.val % 4 = 3 → ¬t.val % 8 = 7 → P)
    (hE : ¬t.val % 8 = 0 → ¬t.val % 4 = 0 → t.val % 4 = 3 → t.val % 8 = 7 → P) : P := by
  by_cases h0 : t.val % 8 = 0
  · exact hA h0 (by omega) (by omega) (by omega)
  · by_cases h1 : t.val % 4 = 0
    · exact hD h0 h1 (by omega) (by omega)
    · by_cases h2 : t.val % 4 = 3
      · by_cases h3 : t.val % 8 = 7
        · exact hE h0 h1 h2 h3
        · exact hC h0 h1 h2 h3
      · exact hB h0 h1 h2 (by omega)

/-- After point `t` the neighbour accumulator is what it was on entry plus the tile product. -/
theorem acc_step (t : Fin cfg0.N) :
    (outsAt0 m c t.val t.isLt).2.2.1 = k0_pay7 (iblk m c 0 t) (iblk m c 1 t) (accBefore m c t) := by
  refine cases5 t _ ?_ ?_ ?_ ?_ ?_
  · intro h0 h1 h2 h3
    rw [outsAt0_A m c t h0 h1 h2 h3]; dsimp only
    unfold accBefore; rw [if_pos h1]
    exact acc_A c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) ((hcond0_0 t).mpr h0) ((hcond0_1 t).mpr h1) (fun h => h2 ((hcond0_2 t).mp h)) (fun h => h3 ((hcond0_3 t).mp h))
  · intro h0 h1 h2 h3
    rw [outsAt0_B m c t h0 h1 h2 h3]; dsimp only
    unfold accBefore; rw [if_neg h1]
    exact acc_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) (fun h => h1 ((hcond0_1 t).mp h)) (fun h => h2 ((hcond0_2 t).mp h)) (fun h => h3 ((hcond0_3 t).mp h)) (outsAt0 m c (t.val - 1) (pred_lt t)).2.2.1 (outsAt0 m c (t.val - 1) (pred_lt t)).2.2.2
  · intro h0 h1 h2 h3
    rw [outsAt0_C m c t h0 h1 h2 h3]; dsimp only
    unfold accBefore; rw [if_neg h1]
    exact acc_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) (fun h => h1 ((hcond0_1 t).mp h)) ((hcond0_2 t).mpr h2) (fun h => h3 ((hcond0_3 t).mp h)) (outsAt0 m c (t.val - 1) (pred_lt t)).2.2.1 (outsAt0 m c (t.val - 1) (pred_lt t)).2.2.2
  · intro h0 h1 h2 h3
    rw [outsAt0_D m c t h0 h1 h2 h3]; dsimp only
    unfold accBefore; rw [if_pos h1]
    exact acc_D c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) ((hcond0_1 t).mpr h1) (fun h => h2 ((hcond0_2 t).mp h)) (fun h => h3 ((hcond0_3 t).mp h)) (outsAt0 m c (t.val - 1) (pred_lt t)).2.2.2
  · intro h0 h1 h2 h3
    rw [outsAt0_E m c t h0 h1 h2 h3]; dsimp only
    unfold accBefore; rw [if_neg h1]
    exact acc_E c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) (fun h => h1 ((hcond0_1 t).mp h)) ((hcond0_2 t).mpr h2) ((hcond0_3 t).mpr h3) (outsAt0 m c (t.val - 1) (pred_lt t)).2.2.1 (outsAt0 m c (t.val - 1) (pred_lt t)).2.2.2

/-- After point `t`, on the stretch its column tile names, the degree accumulator is the update's payload. -/
theorem deg_step_in (t : Fin cfg0.N) (x : S1x1024.Idx) :
    (outsAt0 m c t.val t.isLt).2.2.2 ((degRect (grid0.coords t)).emb x)
      = k0_pay6 (iblk m c 0 t) (View.ld (degBefore m c t) (degRect (grid0.coords t))) x := by
  refine cases5 t _ ?_ ?_ ?_ ?_ ?_
  · intro h0 h1 h2 h3
    rw [outsAt0_A m c t h0 h1 h2 h3]; dsimp only
    unfold degBefore; rw [if_pos h0]
    exact deg_A_in c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) ((hcond0_0 t).mpr h0) ((hcond0_1 t).mpr h1) (fun h => h2 ((hcond0_2 t).mp h)) (fun h => h3 ((hcond0_3 t).mp h)) x
  · intro h0 h1 h2 h3
    rw [outsAt0_B m c t h0 h1 h2 h3]; dsimp only
    unfold degBefore; rw [if_neg h0]
    exact deg_B_in c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) (fun h => h1 ((hcond0_1 t).mp h)) (fun h => h2 ((hcond0_2 t).mp h)) (fun h => h3 ((hcond0_3 t).mp h)) (outsAt0 m c (t.val - 1) (pred_lt t)).2.2.1 (outsAt0 m c (t.val - 1) (pred_lt t)).2.2.2 x
  · intro h0 h1 h2 h3
    rw [outsAt0_C m c t h0 h1 h2 h3]; dsimp only
    unfold degBefore; rw [if_neg h0]
    exact deg_C_in c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) (fun h => h1 ((hcond0_1 t).mp h)) ((hcond0_2 t).mpr h2) (fun h => h3 ((hcond0_3 t).mp h)) (outsAt0 m c (t.val - 1) (pred_lt t)).2.2.1 (outsAt0 m c (t.val - 1) (pred_lt t)).2.2.2 x
  · intro h0 h1 h2 h3
    rw [outsAt0_D m c t h0 h1 h2 h3]; dsimp only
    unfold degBefore; rw [if_neg h0]
    exact deg_D_in c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) ((hcond0_1 t).mpr h1) (fun h => h2 ((hcond0_2 t).mp h)) (fun h => h3 ((hcond0_3 t).mp h)) (outsAt0 m c (t.val - 1) (pred_lt t)).2.2.2 x
  · intro h0 h1 h2 h3
    rw [outsAt0_E m c t h0 h1 h2 h3]; dsimp only
    unfold degBefore; rw [if_neg h0]
    exact deg_E_in c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) (fun h => h1 ((hcond0_1 t).mp h)) ((hcond0_2 t).mpr h2) ((hcond0_3 t).mpr h3) (outsAt0 m c (t.val - 1) (pred_lt t)).2.2.1 (outsAt0 m c (t.val - 1) (pred_lt t)).2.2.2 x

/-- After point `t`, off that stretch, the degree accumulator is as on entry. -/
theorem deg_step_out (t : Fin cfg0.N) (y : S1x4096.Idx) (hy : y ∉ (degRect (grid0.coords t)).set) :
    (outsAt0 m c t.val t.isLt).2.2.2 y = degBefore m c t y := by
  refine cases5 t _ ?_ ?_ ?_ ?_ ?_
  · intro h0 h1 h2 h3
    rw [outsAt0_A m c t h0 h1 h2 h3]; dsimp only
    unfold degBefore; rw [if_pos h0]
    exact deg_A_out c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) ((hcond0_0 t).mpr h0) ((hcond0_1 t).mpr h1) (fun h => h2 ((hcond0_2 t).mp h)) (fun h => h3 ((hcond0_3 t).mp h)) y hy
  · intro h0 h1 h2 h3
    rw [outsAt0_B m c t h0 h1 h2 h3]; dsimp only
    unfold degBefore; rw [if_neg h0]
    exact deg_B_out c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) (fun h => h1 ((hcond0_1 t).mp h)) (fun h => h2 ((hcond0_2 t).mp h)) (fun h => h3 ((hcond0_3 t).mp h)) (outsAt0 m c (t.val - 1) (pred_lt t)).2.2.1 (outsAt0 m c (t.val - 1) (pred_lt t)).2.2.2 y hy
  · intro h0 h1 h2 h3
    rw [outsAt0_C m c t h0 h1 h2 h3]; dsimp only
    unfold degBefore; rw [if_neg h0]
    exact deg_C_out c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) (fun h => h1 ((hcond0_1 t).mp h)) ((hcond0_2 t).mpr h2) (fun h => h3 ((hcond0_3 t).mp h)) (outsAt0 m c (t.val - 1) (pred_lt t)).2.2.1 (outsAt0 m c (t.val - 1) (pred_lt t)).2.2.2 y hy
  · intro h0 h1 h2 h3
    rw [outsAt0_D m c t h0 h1 h2 h3]; dsimp only
    unfold degBefore; rw [if_neg h0]
    exact deg_D_out c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) ((hcond0_1 t).mpr h1) (fun h => h2 ((hcond0_2 t).mp h)) (fun h => h3 ((hcond0_3 t).mp h)) (outsAt0 m c (t.val - 1) (pred_lt t)).2.2.2 y hy
  · intro h0 h1 h2 h3
    rw [outsAt0_E m c t h0 h1 h2 h3]; dsimp only
    unfold degBefore; rw [if_neg h0]
    exact deg_E_out c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) (fun h => h1 ((hcond0_1 t).mp h)) ((hcond0_2 t).mpr h2) ((hcond0_3 t).mpr h3) (outsAt0 m c (t.val - 1) (pred_lt t)).2.2.1 (outsAt0 m c (t.val - 1) (pred_lt t)).2.2.2 y hy

/-- At a row tile's last column tile the neighbour output block is the accumulator as the point leaves it. -/
theorem out2_step (t : Fin cfg0.N) (h : t.val % 4 = 3) :
    (outsAt0 m c t.val t.isLt).1 = k0_pay1 (outsAt0 m c t.val t.isLt).2.2.1 := by
  refine cases5 t _ ?_ ?_ ?_ ?_ ?_
  · intro h0 h1 h2 h3; omega
  · intro h0 h1 h2 h3; omega
  · intro h0 h1 h2 h3
    rw [outsAt0_C m c t h0 h1 h2 h3]; dsimp only
    exact out2_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) (fun h => h1 ((hcond0_1 t).mp h)) ((hcond0_2 t).mpr h2) (fun h => h3 ((hcond0_3 t).mp h)) (outsAt0 m c (t.val - 1) (pred_lt t)).2.2.1 (outsAt0 m c (t.val - 1) (pred_lt t)).2.2.2
  · intro h0 h1 h2 h3; omega
  · intro h0 h1 h2 h3
    rw [outsAt0_E m c t h0 h1 h2 h3]; dsimp only
    exact out2_E c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) (fun h => h1 ((hcond0_1 t).mp h)) ((hcond0_2 t).mpr h2) ((hcond0_3 t).mpr h3) (outsAt0 m c (t.val - 1) (pred_lt t)).2.2.1 (outsAt0 m c (t.val - 1) (pred_lt t)).2.2.2

/-- At a batch's last point the degree output block is the accumulator as the point leaves it. -/
theorem out3_step (t : Fin cfg0.N) (h : t.val % 8 = 7) :
    (outsAt0 m c t.val t.isLt).2.1 = k0_pay2 (outsAt0 m c t.val t.isLt).2.2.2 := by
  refine cases5 t _ ?_ ?_ ?_ ?_ ?_
  · intro h0 h1 h2 h3; omega
  · intro h0 h1 h2 h3; omega
  · intro h0 h1 h2 h3; omega
  · intro h0 h1 h2 h3; omega
  · intro h0 h1 h2 h3
    rw [outsAt0_E m c t h0 h1 h2 h3]; dsimp only
    exact out3_E c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (fun h => h0 ((hcond0_0 t).mp h)) (fun h => h1 ((hcond0_1 t).mp h)) ((hcond0_2 t).mpr h2) ((hcond0_3 t).mpr h3) (outsAt0 m c (t.val - 1) (pred_lt t)).2.2.1 (outsAt0 m c (t.val - 1) (pred_lt t)).2.2.2

end Cert.KernelIdeal.Centroid

end
-- ==== Proof.Payloads.lean ====
/-
  The body's arithmetic read at an index, on the extended reals. The tile product is a matrix
  product into a zero accumulator: at `(r, e)` it is `Σ_k a[r, k] · x[k, e]` (the change of float
  format before it is the identity); the column sums are a reduction down the rows: at lane `k`
  `Σ_r a[r, k]`; the casts that add or drop a leading unit axis keep the entries; the zero blocks
  are zero.
-/
import proofs.«107697_j35141422416050_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx
open scoped BigOperators

namespace Cert.KernelIdeal.Centroid

open Cert.KernelIdeal Cert.KernelIdeal.Gen

/-- The tile with its leading unit axis dropped: at `(r, k)` it is the tile at `(0, r, k)`. -/
private theorem pay5_apply (x0 : Vec Ideal S1x2048x1024 .f32) (r : Fin 2048) (k : Fin 1024) :
    k0_pay5 (F := Ideal) x0 (ix2 r k) = x0 (ix3 0 r k) :=
  shapeCast_1ab_ab_apply x0 _ r k

/-! The product's operand indices, axis by axis: the left operand is read at (the result's row, the
contraction position), the right operand at (the contraction position, the result's column). -/

private theorem lhs_dot_0 (i : S2048x6.Idx) (q : dot_S2048x1024_S1024x6_S2048x6_1_0_0_1_n_n.contr.Idx) :
    (dot_S2048x1024_S1024x6_S2048x6_1_0_0_1_n_n.lhsIdx i q 0).val = (i 0).val := by
  unfold DotDims.lhsIdx
  rw [dif_neg (show ¬(0 : Fin S2048x1024.rank) ∈ dot_S2048x1024_S1024x6_S2048x6_1_0_0_1_n_n.lhsBatch by decide), dif_pos (show (0 : Fin S2048x1024.rank) ∈ dot_S2048x1024_S1024x6_S2048x6_1_0_0_1_n_n.lhsNonContracting by decide)]
  rfl
private theorem lhs_dot_1 (i : S2048x6.Idx) (q : dot_S2048x1024_S1024x6_S2048x6_1_0_0_1_n_n.contr.Idx) :
    (dot_S2048x1024_S1024x6_S2048x6_1_0_0_1_n_n.lhsIdx i q 1).val = (q ⟨0, by decide⟩).val :=
  dot_S2048x1024_S1024x6_S2048x6_1_0_0_1_n_n.lhsIdx_val_of_single rfl i q
private theorem rhs_dot_0 (i : S2048x6.Idx) (q : dot_S2048x1024_S1024x6_S2048x6_1_0_0_1_n_n.contr.Idx) :
    (dot_S2048x1024_S1024x6_S2048x6_1_0_0_1_n_n.rhsIdx i q 0).val = (q ⟨0, by decide⟩).val :=
  dot_S2048x1024_S1024x6_S2048x6_1_0_0_1_n_n.rhsIdx_val_of_single rfl i q
private theorem rhs_dot_1 (i : S2048x6.Idx) (q : dot_S2048x1024_S1024x6_S2048x6_1_0_0_1_n_n.contr.Idx) :
    (dot_S2048x1024_S1024x6_S2048x6_1_0_0_1_n_n.rhsIdx i q 1).val = (i 1).val := by
  unfold DotDims.rhsIdx
  rw [dif_neg (show ¬(1 : Fin S1024x6.rank) ∈ dot_S2048x1024_S1024x6_S2048x6_1_0_0_1_n_n.rhsBatch by decide), dif_pos (show (1 : Fin S1024x6.rank) ∈ dot_S2048x1024_S1024x6_S2048x6_1_0_0_1_n_n.rhsNonContracting by decide)]
  rfl

/-- The neighbour update at `(r, e)`: the accumulator there plus the tile's row `r` times the features' column `e`. -/
theorem pay7_apply (x0 : Vec Ideal S1x2048x1024 .f32) (x1 : Vec Ideal S1x1024x6 .f32) (acc : Vec Ideal S2048x6 .f32)
    (r : Fin 2048) (e : Fin 6) :
    k0_pay7 (F := Ideal) x0 x1 acc (ix2 r e) = acc (ix2 r e) + ∑ k : Fin 1024, x0 (ix3 0 r k) * x1 (ix3 0 k e) := by
  unfold k0_pay7
  rw [shapeCast_self]
  show acc (ix2 r e) + FloatOps.matmul (F := Ideal) dot_S2048x1024_S1024x6_S2048x6_1_0_0_1_n_n none _ _ (constant S2048x6 .f32 0x00000000#32) (ix2 r e) = _
  rw [Ideal.matmul_constant_zero_apply, ← Equiv.sum_comp (contrEquiv1 dot_S2048x1024_S1024x6_S2048x6_1_0_0_1_n_n 1024 rfl rfl).symm]
  refine congrArg (acc (ix2 r e) + ·) (Finset.sum_congr rfl fun k _ => ?_)
  have hk := contrEquiv1_symm_val dot_S2048x1024_S1024x6_S2048x6_1_0_0_1_n_n 1024 rfl rfl k
  have el : dot_S2048x1024_S1024x6_S2048x6_1_0_0_1_n_n.lhsIdx (ix2 r e) ((contrEquiv1 dot_S2048x1024_S1024x6_S2048x6_1_0_0_1_n_n 1024 rfl rfl).symm k) = ix2 r k := funext fun a => Fin.ext (by
    match a with
    | ⟨0, _⟩ => exact lhs_dot_0 _ _
    | ⟨1, _⟩ => exact (lhs_dot_1 _ _).trans hk)
  have er : dot_S2048x1024_S1024x6_S2048x6_1_0_0_1_n_n.rhsIdx (ix2 r e) ((contrEquiv1 dot_S2048x1024_S1024x6_S2048x6_1_0_0_1_n_n 1024 rfl rfl).symm k) = ix2 k e := funext fun a => Fin.ext (by
    match a with
    | ⟨0, _⟩ => exact (rhs_dot_0 _ _).trans hk
    | ⟨1, _⟩ => exact rhs_dot_1 _ _)
  rw [el, er]
  show k0_pay5 x0 (ix2 r k) * shapeCast S1024x6 x1 shapeCasts_S1x1024x6_S1024x6 (ix2 k e) = _
  rw [pay5_apply, shapeCast_1ab_ab_apply]

/-- The degree update at lane `k`: the stretch's entry plus the tile's column sum. -/
theorem pay6_apply (x0 : Vec Ideal S1x2048x1024 .f32) (v17 : Vec Ideal S1x1024 .f32) (k : Fin 1024) :
    k0_pay6 (F := Ideal) x0 v17 (ix2 0 k) = v17 (ix2 0 k) + ∑ r : Fin 2048, x0 (ix3 0 r k) := by
  unfold k0_pay6
  rw [shapeCast_self]
  show v17 (ix2 0 k) + shapeCast S1x1024 (multiReduction (F := Ideal) .add [0] S1024 (k0_pay5 x0) 0x00000000#32 reduces_S2048x1024_S1024 (.inl rfl) rfl) shapeCasts_S1024_S1x1024 (ix2 0 k) = _
  refine congrArg (v17 (ix2 0 k) + ·) ?_
  refine (shapeCast_a_1a_apply _ _ 0 k).trans ?_
  refine (Ideal.multiReduction_add_single (k0_pay5 x0) 0x00000000#32 reduces_S2048x1024_S1024 (.inl rfl) rfl (ix1 k)).trans ?_
  refine Finset.sum_congr rfl fun r _ => ?_
  have hl : reduces_S2048x1024_S1024.lift (ix1 k) r = ix2 r k := funext fun a => Fin.ext (by
    match a with
    | ⟨0, _⟩ => rfl
    | ⟨1, _⟩ => rfl)
  rw [hl]
  exact pay5_apply x0 r k

/-- The neighbour output block is the accumulator under a leading unit axis. -/
theorem pay1_apply (v : Vec Ideal S2048x6 .f32) (r : Fin 2048) (e : Fin 6) :
    k0_pay1 (F := Ideal) v (ix3 0 r e) = v (ix2 r e) := by
  exact shapeCast_ab_1ab_apply v _ 0 r e

/-- The degree output block is the accumulator under a leading unit axis. -/
theorem pay2_apply (v : Vec Ideal S1x4096 .f32) (k : Fin 4096) :
    k0_pay2 (F := Ideal) v (ix3 0 0 k) = v (ix2 0 k) := by
  exact shapeCast_ab_1ab_apply v _ 0 0 k

/-- The zero block stored into the degree accumulator. -/
theorem pay3_apply (y : S1x4096.Idx) : k0_pay3 (F := Ideal) y = 0 := by
  unfold k0_pay3
  rw [shapeCast_self]
  exact Ideal.ofBits_zero_f32

/-- The zero block stored into the neighbour accumulator. -/
theorem pay4_apply (y : S2048x6.Idx) : k0_pay4 (F := Ideal) y = 0 := by
  unfold k0_pay4
  rw [shapeCast_self]
  exact Ideal.ofBits_zero_f32

end Cert.KernelIdeal.Centroid

end
-- ==== Proof.SumRuns.lean ====
/-
  Sums cut into runs. A sum over `Fin N` with `N = B · C` is the sum over the `B` runs of the
  sums over the `C` terms of each run, the term at position `c` of run `b` being the one at
  `b · C + c`. This holds in any commutative additive monoid, so on the extended reals it needs
  no finiteness. A sum over the first `n + 1` runs is the sum over the first `n` plus run `n`.
-/
import Mathlib.Algebra.BigOperators.Fin
import Mathlib.Logic.Equiv.Fin.Basic

namespace Cert.Centroid

open scoped BigOperators

/-- Position `c` of run `b` is below `N = B · C`. -/
theorem run_pos_lt {B C N : ℕ} (hN : N = B * C) (b : Fin B) (c : Fin C) : b.val * C + c.val < N := by
  subst hN
  have hb := b.isLt
  have hc := c.isLt
  calc b.val * C + c.val < b.val * C + C := by omega
    _ = (b.val + 1) * C := (Nat.succ_mul _ _).symm
    _ ≤ B * C := Nat.mul_le_mul_right C hb

/-- A sum over `Fin N`, `N = B · C`, is the sum over the runs of the sums inside each run. -/
theorem sum_runs {M : Type*} [AddCommMonoid M] {B C N : ℕ} (hN : N = B * C) (f : Fin N → M) :
    ∑ x : Fin N, f x = ∑ b : Fin B, ∑ c : Fin C, f ⟨b.val * C + c.val, run_pos_lt hN b c⟩ := by
  subst hN
  rw [← Fintype.sum_prod_type', ← (finProdFinEquiv (m := B) (n := C)).sum_comp]
  refine Finset.sum_congr rfl fun p _ => congrArg f (Fin.ext ?_)
  show (p.2 : ℕ) + C * p.1 = p.1 * C + p.2
  rw [Nat.mul_comm, Nat.add_comm]

end Cert.Centroid
-- ==== Proof.Spec.lean ====
/-
  The mathematics of the fused pass over the adjacency, on the extended reals.

  For a batch `b` the kernel walks the [4096, 4096] adjacency `A[b]` in tiles of 2048 rows by
  1024 columns, row tile `i` outermost, column tile `j` innermost, and draws two sums out of the
  one pass:
    * the neighbour sums `Σ_j A[b, row, j] · X[b, j, e]`, a row tile at a time: the products of
      tile `(i, j)` with rows `j·1024 …` of `X[b]` (`dotTile`), added over the four column tiles;
    * the degrees `Σ_r A[b, r, k]`, the column sums: the sums down tile `(i, j)`'s 2048 rows
      (`colTile`), added over the two row tiles.
  Both regroupings are sums cut into runs, true in any commutative additive monoid, so no entry
  need be finite.

  Grid positions are plain naturals: position `t` of the 64 stands for batch `t / 8`, row tile
  `t / 4 % 2` and column tile `t % 4`; `rowOf` and `colOf` reduce their tile number modulo the
  tile count, so they are total and a position can be passed as it is.
-/
import Idealize.ShloMosaic.PureOps.Ideal
import Idealize.ShloMosaic.Lib.ValueIdx
import proofs.«107697_j35141422416050_1_alg».proof.Proof.SumRuns

noncomputable section

namespace Cert.Centroid

open Idealize.ShloMosaic Idealize.ShloMosaic.ValueIdx
open scoped BigOperators

/-- The adjacency's shape, the stacked features' shape. -/
abbrev ShA : Shape := ⟨3, ![8, 4096, 4096]⟩
abbrev ShX : Shape := ⟨3, ![8, 4096, 6]⟩

/-- The batch of grid position `t`. -/
def bOf (t : ℕ) : Fin 8 := ⟨t / 8 % 8, Nat.mod_lt _ (by decide)⟩

/-- Row `r` of row tile `i` (taken modulo 2) in the adjacency. -/
def rowOf (i : ℕ) (r : Fin 2048) : Fin 4096 :=
  ⟨i % 2 * 2048 + r.val, by have := r.isLt; have := Nat.mod_lt i (show 0 < 2 by decide); omega⟩

/-- Column `k` of column tile `j` (taken modulo 4) in the adjacency; also row `k` of row tile `j` of the features. -/
def colOf (j : ℕ) (k : Fin 1024) : Fin 4096 :=
  ⟨j % 4 * 1024 + k.val, by have := k.isLt; have := Nat.mod_lt j (show 0 < 4 by decide); omega⟩

theorem rowOf_val (i : ℕ) (r : Fin 2048) : (rowOf i r).val = i % 2 * 2048 + r.val := rfl
theorem colOf_val (j : ℕ) (k : Fin 1024) : (colOf j k).val = j % 4 * 1024 + k.val := rfl
theorem bOf_val (t : ℕ) : (bOf t).val = t / 8 % 8 := rfl

/-- Tile `(i, j)` of `A[b]` times row tile `j` of `X[b]`, at row `r` of the tile and feature `e`. -/
def dotTile (A : ShA.Idx → EReal) (X : ShX.Idx → EReal) (b : Fin 8) (i j : ℕ) (r : Fin 2048) (e : Fin 6) : EReal :=
  ∑ k : Fin 1024, A (ix3 b (rowOf i r) (colOf j k)) * X (ix3 b (colOf j k) e)

/-- The sum down the 2048 rows of row tile `i` of `A[b]`, at column `k`. -/
def colTile (A : ShA.Idx → EReal) (b : Fin 8) (i : ℕ) (k : Fin 4096) : EReal :=
  ∑ r : Fin 2048, A (ix3 b (rowOf i r) k)

/-- The four column tiles' products add up to the whole row's neighbour sum. -/
theorem sum_dotTile (A : ShA.Idx → EReal) (X : ShX.Idx → EReal) (b : Fin 8) (i : ℕ) (r : Fin 2048) (e : Fin 6) :
    ∑ j ∈ Finset.range 4, dotTile A X b i j r e = ∑ j : Fin 4096, A (ix3 b (rowOf i r) j) * X (ix3 b j e) := by
  rw [sum_runs (B := 4) (C := 1024) (by norm_num) (fun j : Fin 4096 => A (ix3 b (rowOf i r) j) * X (ix3 b j e)),
    Finset.sum_range]
  refine Finset.sum_congr rfl fun j _ => ?_
  unfold dotTile
  refine Finset.sum_congr rfl fun k _ => ?_
  have hc : colOf j.val k = ⟨j.val * 1024 + k.val, run_pos_lt (by norm_num) j k⟩ :=
    Fin.ext (by rw [colOf_val, Nat.mod_eq_of_lt j.isLt])
  rw [hc]

/-- The two row tiles' column sums add up to the whole column's sum, the degree. -/
theorem sum_colTile (A : ShA.Idx → EReal) (b : Fin 8) (k : Fin 4096) :
    colTile A b 0 k + colTile A b 1 k = ∑ r : Fin 4096, A (ix3 b r k) := by
  rw [sum_runs (B := 2) (C := 2048) (by norm_num) (fun r : Fin 4096 => A (ix3 b r k)), Fin.sum_univ_two]
  unfold colTile
  rfl

end Cert.Centroid

end
-- ==== Proof.Blocks.lean ====
/-
  Where a grid point's input blocks sit in the arrays. Position `t` of the 64 reads, from the
  adjacency, the tile at batch `t / 8`, row tile `t / 4 % 2`, column tile `t % 4`, and from the
  stacked features the rows of that column tile; the stretch of the degree accumulator it
  updates starts at lane `(t % 4) · 1024`. The stacked features are the two predictions side by
  side on the last axis: columns 0..2 the first, 3..5 the second.
-/
import proofs.«107697_j35141422416050_1_alg».proof.Proof.Gen.KernelIdeal.Frame
import proofs.«107697_j35141422416050_1_alg».proof.Proof.Spec
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.Centroid

open Cert.KernelIdeal Cert.KernelIdeal.Gen Cert.Centroid

variable {F : FTy → Type} [FloatOps F]
variable (m : (ℓ : Loc nD τ sig) → Buf (Elt F) ℓ) (c : Dev nD)

/-- The adjacency and the stacked features as the region finds them, at their literal types. -/
abbrev adj : Vec F S8x4096x4096 .f32 := V m c main_arg2
abbrev feats : Vec F S8x4096x6 .f32 := V m c main_v0

/-- The updated stretch of the degree accumulator starts at the column tile's first lane. -/
theorem off1_eq (t : Fin cfg0.N) : k0_off1 (grid0.coords t) = ![0, t.val % 4 * 1024] :=
  (by decide +kernel : ∀ t : Fin grid0.N, k0_off1 (grid0.coords t) = ![0, t.val % 4 * 1024]) t

/-- The adjacency window's block numbers at position `t`: batch, row tile, column tile. -/
private theorem idx0 : ∀ t : Fin cfg0.N,
    win0_0.index t 0 = t.val / 8 ∧ win0_0.index t 1 = t.val / 4 % 2 ∧ win0_0.index t 2 = t.val % 4 :=
  (by decide +kernel : ∀ t : Fin grid0.N,
    win0_0.index t 0 = t.val / 8 ∧ win0_0.index t 1 = t.val / 4 % 2 ∧ win0_0.index t 2 = t.val % 4)

/-- The feature window's block numbers at position `t`: batch, column tile, and the whole feature axis. -/
private theorem idx1 : ∀ t : Fin cfg0.N,
    win0_1.index t 0 = t.val / 8 ∧ win0_1.index t 1 = t.val % 4 ∧ win0_1.index t 2 = 0 :=
  (by decide +kernel : ∀ t : Fin grid0.N,
    win0_1.index t 0 = t.val / 8 ∧ win0_1.index t 1 = t.val % 4 ∧ win0_1.index t 2 = 0)

/-- The adjacency block of point `t`, read at row `r` and column `k` of the tile. -/
theorem ablk_apply (t : Fin cfg0.N) (r : Fin 2048) (k : Fin 1024) :
    (iblk m c 0 t : Vec F S1x2048x1024 .f32) (ix3 0 r k) = adj m c (ix3 (bOf t.val) (rowOf (t.val / 4) r) (colOf t.val k)) := by
  have hN : t.val < 64 := lt_of_lt_of_eq t.isLt (show cfg0.N = 64 from N_0)
  obtain ⟨h0, h1, h2⟩ := idx0 t
  unfold iblk
  rw [View.read_apply]
  show V m c main_arg2 (((cfg0.win 0).blk t).view.emb (ix3 0 r k)) = V m c main_arg2 _
  congr 1
  funext a
  apply Fin.ext
  match a with
  | ⟨0, _⟩ =>
    show win0_0.index t 0 * 1 + 1 * 0 = (bOf t.val).val
    rw [h0, bOf_val]; omega
  | ⟨1, _⟩ =>
    show win0_0.index t 1 * 2048 + 1 * r.val = (rowOf (t.val / 4) r).val
    rw [h1, rowOf_val]; omega
  | ⟨2, _⟩ =>
    show win0_0.index t 2 * 1024 + 1 * k.val = (colOf t.val k).val
    rw [h2, colOf_val]; omega

/-- The feature block of point `t`, read at row `k` of the tile and feature `e`. -/
theorem xblk_apply (t : Fin cfg0.N) (k : Fin 1024) (e : Fin 6) :
    (iblk m c 1 t : Vec F S1x1024x6 .f32) (ix3 0 k e) = feats m c (ix3 (bOf t.val) (colOf t.val k) e) := by
  have hN : t.val < 64 := lt_of_lt_of_eq t.isLt (show cfg0.N = 64 from N_0)
  obtain ⟨h0, h1, h2⟩ := idx1 t
  unfold iblk
  rw [View.read_apply]
  show V m c main_v0 (((cfg0.win 1).blk t).view.emb (ix3 0 k e)) = V m c main_v0 _
  congr 1
  funext a
  apply Fin.ext
  match a with
  | ⟨0, _⟩ =>
    show win0_1.index t 0 * 1 + 1 * 0 = (bOf t.val).val
    rw [h0, bOf_val]; omega
  | ⟨1, _⟩ =>
    show win0_1.index t 1 * 1024 + 1 * k.val = (colOf t.val k).val
    rw [h1, colOf_val]; omega
  | ⟨2, _⟩ =>
    show win0_1.index t 2 * 6 + 1 * e.val = e.val
    rw [h2]; omega

/-- The stacked features are the host's concatenation of the two predictions along the feature axis, the one host
    operation ahead of the region. -/
private theorem feats_eq : (feats m c : S8x4096x6.Idx → Elt F .f32)
    = concatenate S8x4096x6 2 [⟨S8x4096x3, (m ((c : Thread nD τ).loc main_arg0) : Vec F S8x4096x3 .f32)⟩,
        ⟨S8x4096x3, (m ((c : Thread nD τ).loc main_arg1) : Vec F S8x4096x3 .f32)⟩]
        concatenates_S8x4096x3_S8x4096x3_S8x4096x6_d2 := by
  show StableHlo.after hostOps0 (fun b => m (c, b)) (Proc.devRef .tc main_v0) = _
  after_results

/-- Features 0..2 of the stacked array are the first prediction's. -/
theorem feats_lo (b : Fin 8) (j : Fin 4096) (e : Fin 3) :
    feats m c (ix3 b j ⟨e.val, by have := e.isLt; omega⟩) = (m ((c : Thread nD τ).loc main_arg0) : Vec F S8x4096x3 .f32) (ix3 b j e) := by
  show (feats m c : S8x4096x6.Idx → Elt F .f32) _ = _
  rw [feats_eq m c]
  refine concatenate_pair_apply_left (t := S8x4096x6) (s₁ := S8x4096x3) (s₂ := S8x4096x3) 2 _ _ _ _ (rfl : (3 : ℕ) = 3)
    (ix3 b j e) ?_
  intro a
  match a with
  | ⟨0, _⟩ => rfl
  | ⟨1, _⟩ => rfl
  | ⟨2, _⟩ => rfl

/-- Features 3..5 of the stacked array are the second prediction's. -/
theorem feats_hi (b : Fin 8) (j : Fin 4096) (e : Fin 3) :
    feats m c (ix3 b j ⟨3 + e.val, by have := e.isLt; omega⟩) = (m ((c : Thread nD τ).loc main_arg1) : Vec F S8x4096x3 .f32) (ix3 b j e) := by
  show (feats m c : S8x4096x6.Idx → Elt F .f32) _ = _
  rw [feats_eq m c]
  refine concatenate_pair_apply_right (t := S8x4096x6) (s₁ := S8x4096x3) (s₂ := S8x4096x3) 2 _ _ _ _ (rfl : (3 : ℕ) = 3)
    (rfl : (3 : ℕ) = 3) (ix3 b j e) ?_ ?_
  · intro a ha
    match a, ha with
    | ⟨0, _⟩, _ => rfl
    | ⟨1, _⟩, _ => rfl
    | ⟨2, _⟩, ha => exact absurd rfl ha
  · show e.val + 3 = 3 + e.val
    omega

end Cert.KernelIdeal.Centroid

end
-- ==== Proof.Invariant.lean ====
/-
  What the two accumulators hold after each grid point, on the extended reals, in closed form.

  After position `t` (batch `t / 8`, row tile `t / 4 % 2`, column tile `t % 4`):
    * the neighbour accumulator at `(r, e)` is the sum of the tile products of the column tiles
      swept so far in this row tile, `0 … t % 4`;
    * the degree accumulator at lane `k` is the column sum over row tile 0 if lane `k`'s column
      tile has been swept in row tile 0 (`k / 1024 ≤ t % 8`), else nothing, plus the column sum over
      row tile 1 if it has been swept there too (`4 + k / 1024 ≤ t % 8`), else nothing.
  Both by induction on the position, a step adding one term.
-/
import proofs.«107697_j35141422416050_1_alg».proof.Proof.Steps
import proofs.«107697_j35141422416050_1_alg».proof.Proof.Payloads
import proofs.«107697_j35141422416050_1_alg».proof.Proof.Blocks
import proofs.«107697_j35141422416050_1_alg».proof.Proof.Spec

set_option maxRecDepth 16384

noncomputable section

open Idealize.ShloMosaic Idealize.ShloMosaic.TcCoe Idealize.SL.Sem Idealize.ShloMosaic.ValueIdx
open scoped BigOperators

namespace Cert.KernelIdeal.Centroid

open Cert.KernelIdeal Cert.KernelIdeal.Gen Cert.Centroid

/-- A column tile's number counts modulo 4. -/
theorem colOf_mod (n : ℕ) (k : Fin 1024) : colOf (n % 4) k = colOf n k :=
  Fin.ext (by rw [colOf_val, colOf_val, Nat.mod_mod])

/-- A tile product depends on its column tile's number modulo 4. -/
theorem dotTile_mod (A : ShA.Idx → EReal) (X : ShX.Idx → EReal) (b : Fin 8) (i n : ℕ) (r : Fin 2048) (e : Fin 6) :
    dotTile A X b i (n % 4) r e = dotTile A X b i n r e := by
  unfold dotTile
  exact Finset.sum_congr rfl fun k _ => by rw [colOf_mod]

/-- A row tile's number counts modulo 2. -/
theorem rowOf_congr {i i' : ℕ} (h : i % 2 = i' % 2) (r : Fin 2048) : rowOf i r = rowOf i' r :=
  Fin.ext (by rw [rowOf_val, rowOf_val, h])

theorem dotTile_congr_row (A : ShA.Idx → EReal) (X : ShX.Idx → EReal) (b : Fin 8) {i i' : ℕ} (h : i % 2 = i' % 2)
    (j : ℕ) (r : Fin 2048) (e : Fin 6) : dotTile A X b i j r e = dotTile A X b i' j r e := by
  unfold dotTile
  exact Finset.sum_congr rfl fun k _ => by rw [rowOf_congr h]

theorem colTile_congr (A : ShA.Idx → EReal) (b : Fin 8) {i i' : ℕ} (h : i % 2 = i' % 2) (k : Fin 4096) :
    colTile A b i k = colTile A b i' k := by
  unfold colTile
  exact Finset.sum_congr rfl fun r _ => by rw [rowOf_congr h]

/-- Inside a batch the position before has the same batch. -/
theorem bOf_pred {n : ℕ} (h : n % 8 ≠ 0) : bOf (n - 1) = bOf n :=
  Fin.ext (by rw [bOf_val, bOf_val]; omega)

variable (m : (ℓ : Loc nD τ sig) → Buf (Elt Ideal) ℓ) (c : Dev nD)

/-- The two input blocks of a point, at their literal types. -/
abbrev ablk (t : Fin cfg0.N) : Vec Ideal S1x2048x1024 .f32 := iblk m c 0 t
abbrev xblk (t : Fin cfg0.N) : Vec Ideal S1x1024x6 .f32 := iblk m c 1 t

/-- The tile product of position `t`, read off the point's two input blocks. -/
theorem blocks_dot (t : Fin cfg0.N) (r : Fin 2048) (e : Fin 6) :
    (∑ k : Fin 1024, ablk m c t (ix3 0 r k) * xblk m c t (ix3 0 k e))
      = dotTile (adj m c) (feats m c) (bOf t.val) (t.val / 4) (t.val % 4) r e := by
  rw [dotTile_mod]
  unfold dotTile
  exact Finset.sum_congr rfl fun k _ => congrArg₂ (· * ·) (ablk_apply m c t r k) (xblk_apply m c t k e)

/-- The column sum of position `t`'s adjacency block at lane `x` of the tile. -/
theorem blocks_col (t : Fin cfg0.N) (x : Fin 1024) :
    (∑ r : Fin 2048, ablk m c t (ix3 0 r x))
      = colTile (adj m c) (bOf t.val) (t.val / 4) (colOf t.val x) := by
  unfold colTile
  exact Finset.sum_congr rfl fun r _ => ablk_apply m c t r x

theorem acc_eq_nat (n : ℕ) : ∀ (hn : n < cfg0.N) (r : Fin 2048) (e : Fin 6),
    ((outsAt0 m c n hn).2.2.1 : Vec Ideal S2048x6 .f32) (ix2 r e)
      = ∑ j ∈ Finset.range (n % 4 + 1), dotTile (adj m c) (feats m c) (bOf n) (n / 4) j r e := by
  induction n using Nat.strong_induction_on with
  | _ n ih =>
    intro hn r e
    have hs := congrFun (acc_step m c ⟨n, hn⟩) (ix2 r e)
    refine hs.trans ((pay7_apply (ablk m c ⟨n, hn⟩) (xblk m c ⟨n, hn⟩) (accBefore m c ⟨n, hn⟩) r e).trans ?_)
    rw [blocks_dot m c ⟨n, hn⟩ r e, Finset.sum_range_succ]
    congr 1
    unfold accBefore
    by_cases h4 : n % 4 = 0
    · rw [if_pos h4, h4, Finset.sum_range_zero]
      exact pay4_apply _
    · rw [if_neg h4]
      have h8 : n % 8 ≠ 0 := by omega
      have e1 : (n - 1) % 4 + 1 = n % 4 := by omega
      have e2 : (n - 1) / 4 % 2 = n / 4 % 2 := by omega
      refine (ih (n - 1) (by omega) (pred_lt ⟨n, hn⟩) r e).trans ?_
      rw [e1, bOf_pred h8]
      exact Finset.sum_congr rfl fun j _ => dotTile_congr_row _ _ _ e2 j r e

/-- The neighbour accumulator after position `t`: the tile products of the column tiles swept so far. -/
theorem acc_eq (t : Fin cfg0.N) (r : Fin 2048) (e : Fin 6) :
    ((outsAt0 m c t.val t.isLt).2.2.1 : Vec Ideal S2048x6 .f32) (ix2 r e)
      = ∑ j ∈ Finset.range (t.val % 4 + 1), dotTile (adj m c) (feats m c) (bOf t.val) (t.val / 4) j r e :=
  acc_eq_nat m c t.val t.isLt r e

/-- Lane `k` is under the stretch position `t` updates exactly when it lies in `t`'s column tile. -/
theorem mem_degRect (t : Fin cfg0.N) (k : Fin 4096) :
    (ix2 (0 : Fin 1) k : S1x4096.Idx) ∈ (degRect (grid0.coords t)).set ↔ k.val / 1024 = t.val % 4 := by
  rw [Rect.mem_set_unit, off1_eq t]
  constructor
  · intro h
    have h1 := h 1
    have e0 : (![0, t.val % 4 * 1024] : Fin 2 → ℕ) 1 = t.val % 4 * 1024 := rfl
    have e1 : S1x1024.size 1 = 1024 := rfl
    have e2 : ((ix2 (0 : Fin 1) k : S1x4096.Idx) 1 : ℕ) = k.val := rfl
    rw [e0, e1, e2] at h1
    omega
  · intro h a
    match a with
    | ⟨0, _⟩ =>
      show (0 : ℕ) ≤ 0 ∧ (0 : ℕ) < 0 + 1
      omega
    | ⟨1, _⟩ =>
      show t.val % 4 * 1024 ≤ k.val ∧ k.val < t.val % 4 * 1024 + 1024
      omega

/-- The lane inside the stretch, as an index of the stretch. -/
theorem emb_degRect (t : Fin cfg0.N) (k : Fin 4096) (x : Fin 1024) (hx : t.val % 4 * 1024 + x.val = k.val) :
    (degRect (grid0.coords t)).emb (ix2 (0 : Fin 1) x : S1x1024.Idx) = (ix2 (0 : Fin 1) k : S1x4096.Idx) := by
  funext a
  apply Fin.ext
  rw [Rect.emb_apply]
  show (k0_off1 (grid0.coords t)) a + 1 * _ = _
  rw [off1_eq t]
  match a with
  | ⟨0, _⟩ => rfl
  | ⟨1, _⟩ =>
    show t.val % 4 * 1024 + 1 * x.val = k.val
    omega

theorem deg_eq_nat (n : ℕ) : ∀ (hn : n < cfg0.N) (k : Fin 4096),
    ((outsAt0 m c n hn).2.2.2 : Vec Ideal S1x4096 .f32) (ix2 0 k)
      = (if k.val / 1024 ≤ n % 8 then colTile (adj m c) (bOf n) 0 k else 0)
        + (if 4 + k.val / 1024 ≤ n % 8 then colTile (adj m c) (bOf n) 1 k else 0) := by
  induction n using Nat.strong_induction_on with
  | _ n ih =>
    intro hn k
    have hk := k.isLt
    -- what the accumulator held on entry, at lane k
    have hbefore : (degBefore m c ⟨n, hn⟩ : Vec Ideal S1x4096 .f32) (ix2 0 k)
        = if n % 8 = 0 then 0 else
            (if k.val / 1024 ≤ (n - 1) % 8 then colTile (adj m c) (bOf n) 0 k else 0)
              + (if 4 + k.val / 1024 ≤ (n - 1) % 8 then colTile (adj m c) (bOf n) 1 k else 0) := by
      unfold degBefore
      by_cases h8 : n % 8 = 0
      · rw [if_pos h8, if_pos h8]; exact pay3_apply _
      · rw [if_neg h8, if_neg h8]
        refine (ih (n - 1) (by omega) (pred_lt ⟨n, hn⟩) k).trans ?_
        rw [bOf_pred h8]
    by_cases hq : k.val / 1024 = n % 4
    · -- lane k is updated: the entry contents plus the tile's column sum
      have hx : n % 4 * 1024 + (k.val - n % 4 * 1024) = k.val := by omega
      have hemb := emb_degRect ⟨n, hn⟩ k ⟨k.val - n % 4 * 1024, by omega⟩ hx
      have hs := deg_step_in m c ⟨n, hn⟩ (ix2 (0 : Fin 1) (⟨k.val - n % 4 * 1024, by omega⟩ : Fin 1024) : S1x1024.Idx)
      rw [hemb] at hs
      refine hs.trans ((pay6_apply (ablk m c ⟨n, hn⟩) (View.ld (degBefore m c ⟨n, hn⟩) (degRect (grid0.coords ⟨n, hn⟩))) ⟨k.val - n % 4 * 1024, by omega⟩).trans ?_)
      have hld : (View.ld (degBefore m c ⟨n, hn⟩) (degRect (grid0.coords ⟨n, hn⟩)) : Vec Ideal S1x1024 .f32)
            (ix2 (0 : Fin 1) (⟨k.val - n % 4 * 1024, by omega⟩ : Fin 1024))
          = (degBefore m c ⟨n, hn⟩ : Vec Ideal S1x4096 .f32) (ix2 0 k) :=
        congrArg (degBefore m c ⟨n, hn⟩ : Vec Ideal S1x4096 .f32) hemb
      have hcol : colOf n (⟨k.val - n % 4 * 1024, by omega⟩ : Fin 1024) = k := Fin.ext (by rw [colOf_val]; exact hx)
      rw [hld, hbefore, blocks_col m c ⟨n, hn⟩ _, hcol]
      show _ + colTile (adj m c) (bOf n) (n / 4) k = _
      by_cases hi : n % 8 < 4
      · rw [colTile_congr (adj m c) (bOf n) (show n / 4 % 2 = 0 % 2 by omega) k]
        split_ifs <;> first | (exfalso; omega) | simp
      · rw [colTile_congr (adj m c) (bOf n) (show n / 4 % 2 = 1 % 2 by omega) k]
        split_ifs <;> first | (exfalso; omega) | simp
    · -- lane k is not touched
      have hy : (ix2 (0 : Fin 1) k : S1x4096.Idx) ∉ (degRect (grid0.coords ⟨n, hn⟩)).set := by
        rw [mem_degRect ⟨n, hn⟩ k]; exact hq
      refine (deg_step_out m c ⟨n, hn⟩ _ hy).trans (hbefore.trans ?_)
      split_ifs <;> first | (exfalso; omega) | simp | rfl

/-- The degree accumulator after position `t`: the column sums of the tiles swept so far in this batch. -/
theorem deg_eq (t : Fin cfg0.N) (k : Fin 4096) :
    ((outsAt0 m c t.val t.isLt).2.2.2 : Vec Ideal S1x4096 .f32) (ix2 0 k)
      = (if k.val / 1024 ≤ t.val % 8 then colTile (adj m c) (bOf t.val) 0 k else 0)
        + (if 4 + k.val / 1024 ≤ t.val % 8 then colTile (adj m c) (bOf t.val) 1 k else 0) :=
  deg_eq_nat m c t.val t.isLt k

end Cert.KernelIdeal.Centroid

end
-- ==== Proof.Arrays.lean ====
/-
  The two arrays the kernel region leaves, on the extended reals.

  A row tile's last column tile writes the neighbour accumulator back as block `(b, i)` of the
  [8, 4096, 6] result: by then it holds all four tile products, the whole neighbour sum
  `Σ_j A[b, row, j] · X[b, j, e]`. A batch's last point writes the degree accumulator back as block
  `b` of the [8, 1, 4096] result: by then it holds both row tiles' column sums, the whole degree
  `Σ_r A[b, r, k]`. The written blocks tile each result array, so each array is that function.
-/
import proofs.«107697_j35141422416050_1_alg».proof.Proof.Invariant

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Centroid

open Cert.KernelIdeal Cert.KernelIdeal.Gen Cert.Centroid

/-- The neighbour sums `Σ_j A[b, i, j] · X[b, j, e]` as an [8, 4096, 6] array. -/
def neighArr (A : ShA.Idx → EReal) (X : ShX.Idx → EReal) : Vec Ideal S8x4096x6 .f32 :=
  fun y => ∑ j : Fin 4096, A (ix3 (y 0) (y 1) j) * X (ix3 (y 0) j (y 2))

/-- The degrees `Σ_r A[b, r, k]` as an [8, 1, 4096] array. -/
def degArr (A : ShA.Idx → EReal) : Vec Ideal S8x1x4096 .f32 :=
  fun y => ∑ r : Fin 4096, A (ix3 (y 0) r (y 2))

variable (m : (ℓ : Loc nD τ sig) → Buf (Elt Ideal) ℓ) (c : Dev nD)

/-- The neighbour result's block numbers at position `t`: batch, row tile, and the whole feature axis. -/
private theorem idx2 : ∀ t : Fin cfg0.N,
    win0_2.index t 0 = t.val / 8 ∧ win0_2.index t 1 = t.val / 4 % 2 ∧ win0_2.index t 2 = 0 :=
  (by decide +kernel : ∀ t : Fin grid0.N,
    win0_2.index t 0 = t.val / 8 ∧ win0_2.index t 1 = t.val / 4 % 2 ∧ win0_2.index t 2 = 0)

/-- The degree result's block numbers at position `t`: batch, and the whole of the other two axes. -/
private theorem idx3 : ∀ t : Fin cfg0.N,
    win0_3.index t 0 = t.val / 8 ∧ win0_3.index t 1 = 0 ∧ win0_3.index t 2 = 0 :=
  (by decide +kernel : ∀ t : Fin grid0.N,
    win0_3.index t 0 = t.val / 8 ∧ win0_3.index t 1 = 0 ∧ win0_3.index t 2 = 0)

/-! ### The neighbour sums -/

/-- Entry `(0, r, e)` of the block of position `t` sits in the [8, 4096, 6] array at batch `t / 8`, row `r` of row
    tile `t / 4`, feature `e`. -/
private theorem emb2 (t : Fin cfg0.N) (r : Fin 2048) (e : Fin 6) :
    ((cfg0.win 2).blk t).view.emb (ix3 0 r e) = (ix3 (bOf t.val) (rowOf (t.val / 4) r) e : S8x4096x6.Idx) := by
  have hN : t.val < 64 := lt_of_lt_of_eq t.isLt (show cfg0.N = 64 from N_0)
  obtain ⟨h0, h1, h2⟩ := idx2 t
  funext a
  apply Fin.ext
  match a with
  | ⟨0, _⟩ =>
    show win0_2.index t 0 * 1 + 1 * 0 = (bOf t.val).val
    rw [h0, bOf_val]; omega
  | ⟨1, _⟩ =>
    show win0_2.index t 1 * 2048 + 1 * r.val = (rowOf (t.val / 4) r).val
    rw [h1, rowOf_val]; omega
  | ⟨2, _⟩ =>
    show win0_2.index t 2 * 6 + 1 * e.val = e.val
    rw [h2]; omega

/-- What a row tile's last point writes back is its block of the neighbour sums: the accumulator then holds all
    four tile products, which add up to the whole row's sum. -/
private theorem flushed2_eq (t : Fin cfg0.N) (h : t.val % 4 = 3) :
    (dats m 0 c).flushed 2 t
      = ((cfg0.win 2).blk t).view.read (Elt Ideal) (neighArr (adj m c) (feats m c)) := by
  show (cfg0.win 2).cut (grid0.coords t) ((dats m 0 c).after 2 t) = _
  rw [after0_2, out2_step m c t h]
  refine funext fun (y : S1x2048x6.Idx) => ?_
  obtain ⟨r, e, rfl⟩ : ∃ (r : Fin 2048) (e : Fin 6), y = ix3 0 r e := by
    refine ⟨y 1, y 2, funext fun a => ?_⟩
    match a with
    | ⟨0, _⟩ =>
      have hy0 : (y 0).val < 1 := (y 0).isLt
      exact Fin.ext (by show (y 0).val = 0; omega)
    | ⟨1, _⟩ => rfl
    | ⟨2, _⟩ => rfl
  show k0_pay1 (outsAt0 m c t.val t.isLt).2.2.1 (ix3 0 r e)
    = neighArr (adj m c) (feats m c) (((cfg0.win 2).blk t).view.emb (ix3 0 r e))
  rw [emb2 t r e, pay1_apply, acc_eq m c t r e, h]
  show ∑ j ∈ Finset.range 4, dotTile (adj m c) (feats m c) (bOf t.val) (t.val / 4) j r e = _
  rw [sum_dotTile]
  rfl

/-- An index of the [8, 4096, 6] array is under the block of position `t` iff each coordinate is in the block's
    range on its axis. -/
private theorem mem_blk2 (t : Fin cfg0.N) (i : S8x4096x6.Idx) :
    i ∈ ((cfg0.win 2).blk t).view.set
      ↔ ∀ a : Fin 3, win0_2.index t a * S1x2048x6.size a ≤ (i a).val
          ∧ (i a).val < win0_2.index t a * S1x2048x6.size a + S1x2048x6.size a := by
  show i ∈ ((View.whole main_v1_0).slice (win0_2.rect t)).set ↔ _
  rw [View.set_slice_whole, Rect.mem_set_unit]
  exact Iff.rfl

/-- Index `(b, row, e)` is under the block written at the last column tile of row tile `row / 2048` of batch `b`. -/
private theorem cover2 (i : S8x4096x6.Idx) :
    ∃ t : Fin cfg0.N, (cfg0.win 2).flush t = true ∧ i ∈ ((cfg0.win 2).blk t).view.set := by
  have hb : (i 0).val < 8 := (i 0).isLt
  have hr : (i 1).val < 4096 := (i 1).isLt
  have he : (i 2).val < 6 := (i 2).isLt
  have hlt : 8 * (i 0).val + 4 * ((i 1).val / 2048) + 3 < cfg0.N := by
    rw [show cfg0.N = 64 from N_0]; omega
  obtain ⟨h0, h1, h2⟩ := idx2 ⟨_, hlt⟩
  refine ⟨⟨_, hlt⟩, (flush0_2 _).mpr (by show (8 * (i 0).val + 4 * ((i 1).val / 2048) + 3) % 4 = 3; omega), ?_⟩
  rw [mem_blk2]
  intro a
  match a with
  | ⟨0, _⟩ =>
    show win0_2.index ⟨_, hlt⟩ 0 * 1 ≤ (i 0).val ∧ (i 0).val < win0_2.index ⟨_, hlt⟩ 0 * 1 + 1
    rw [h0]
    show (8 * (i 0).val + 4 * ((i 1).val / 2048) + 3) / 8 * 1 ≤ (i 0).val
      ∧ (i 0).val < (8 * (i 0).val + 4 * ((i 1).val / 2048) + 3) / 8 * 1 + 1
    omega
  | ⟨1, _⟩ =>
    show win0_2.index ⟨_, hlt⟩ 1 * 2048 ≤ (i 1).val ∧ (i 1).val < win0_2.index ⟨_, hlt⟩ 1 * 2048 + 2048
    rw [h1]
    show (8 * (i 0).val + 4 * ((i 1).val / 2048) + 3) / 4 % 2 * 2048 ≤ (i 1).val
      ∧ (i 1).val < (8 * (i 0).val + 4 * ((i 1).val / 2048) + 3) / 4 % 2 * 2048 + 2048
    omega
  | ⟨2, _⟩ =>
    show win0_2.index ⟨_, hlt⟩ 2 * 6 ≤ (i 2).val ∧ (i 2).val < win0_2.index ⟨_, hlt⟩ 2 * 6 + 6
    rw [h2]
    omega

/-! ### The degrees -/

/-- Entry `(0, 0, k)` of the block of position `t` sits in the [8, 1, 4096] array at batch `t / 8`, lane `k`. -/
private theorem emb3 (t : Fin cfg0.N) (k : Fin 4096) :
    ((cfg0.win 3).blk t).view.emb (ix3 0 0 k) = (ix3 (bOf t.val) 0 k : S8x1x4096.Idx) := by
  have hN : t.val < 64 := lt_of_lt_of_eq t.isLt (show cfg0.N = 64 from N_0)
  obtain ⟨h0, h1, h2⟩ := idx3 t
  funext a
  apply Fin.ext
  match a with
  | ⟨0, _⟩ =>
    show win0_3.index t 0 * 1 + 1 * 0 = (bOf t.val).val
    rw [h0, bOf_val]; omega
  | ⟨1, _⟩ =>
    show win0_3.index t 1 * 1 + 1 * 0 = 0
    rw [h1]
  | ⟨2, _⟩ =>
    show win0_3.index t 2 * 4096 + 1 * k.val = k.val
    rw [h2]; omega

/-- What a batch's last point writes back is its block of the degrees: by then every column tile has been swept in
    both row tiles, so the accumulator holds both column sums, which add up to the whole column's sum. -/
private theorem flushed3_eq (t : Fin cfg0.N) (h : t.val % 8 = 7) :
    (dats m 0 c).flushed 3 t
      = ((cfg0.win 3).blk t).view.read (Elt Ideal) (degArr (adj m c)) := by
  show (cfg0.win 3).cut (grid0.coords t) ((dats m 0 c).after 3 t) = _
  rw [after0_3, out3_step m c t h]
  refine funext fun (y : S1x1x4096.Idx) => ?_
  obtain ⟨k, rfl⟩ : ∃ k : Fin 4096, y = ix3 0 0 k := by
    refine ⟨y 2, funext fun a => ?_⟩
    match a with
    | ⟨0, _⟩ =>
      have hy0 : (y 0).val < 1 := (y 0).isLt
      exact Fin.ext (by show (y 0).val = 0; omega)
    | ⟨1, _⟩ =>
      have hy1 : (y 1).val < 1 := (y 1).isLt
      exact Fin.ext (by show (y 1).val = 0; omega)
    | ⟨2, _⟩ => rfl
  show k0_pay2 (outsAt0 m c t.val t.isLt).2.2.2 (ix3 0 0 k)
    = degArr (adj m c) (((cfg0.win 3).blk t).view.emb (ix3 0 0 k))
  have hk : k.val < 4096 := k.isLt
  rw [emb3 t k, pay2_apply, deg_eq m c t k, if_pos (by omega), if_pos (by omega), sum_colTile]
  rfl

/-- An index of the [8, 1, 4096] array is under the block of position `t` iff each coordinate is in the block's
    range on its axis. -/
private theorem mem_blk3 (t : Fin cfg0.N) (i : S8x1x4096.Idx) :
    i ∈ ((cfg0.win 3).blk t).view.set
      ↔ ∀ a : Fin 3, win0_3.index t a * S1x1x4096.size a ≤ (i a).val
          ∧ (i a).val < win0_3.index t a * S1x1x4096.size a + S1x1x4096.size a := by
  show i ∈ ((View.whole main_v1_1).slice (win0_3.rect t)).set ↔ _
  rw [View.set_slice_whole, Rect.mem_set_unit]
  exact Iff.rfl

/-- Index `(b, 0, k)` is under the block written at the last point of batch `b`. -/
private theorem cover3 (i : S8x1x4096.Idx) :
    ∃ t : Fin cfg0.N, (cfg0.win 3).flush t = true ∧ i ∈ ((cfg0.win 3).blk t).view.set := by
  have hb : (i 0).val < 8 := (i 0).isLt
  have hu : (i 1).val < 1 := (i 1).isLt
  have hk : (i 2).val < 4096 := (i 2).isLt
  have hlt : 8 * (i 0).val + 7 < cfg0.N := by
    rw [show cfg0.N = 64 from N_0]; omega
  obtain ⟨h0, h1, h2⟩ := idx3 ⟨_, hlt⟩
  refine ⟨⟨_, hlt⟩, (flush0_3 _).mpr (by show (8 * (i 0).val + 7) % 8 = 7; omega), ?_⟩
  rw [mem_blk3]
  intro a
  match a with
  | ⟨0, _⟩ =>
    show win0_3.index ⟨_, hlt⟩ 0 * 1 ≤ (i 0).val ∧ (i 0).val < win0_3.index ⟨_, hlt⟩ 0 * 1 + 1
    rw [h0]
    show (8 * (i 0).val + 7) / 8 * 1 ≤ (i 0).val ∧ (i 0).val < (8 * (i 0).val + 7) / 8 * 1 + 1
    omega
  | ⟨1, _⟩ =>
    show win0_3.index ⟨_, hlt⟩ 1 * 1 ≤ (i 1).val ∧ (i 1).val < win0_3.index ⟨_, hlt⟩ 1 * 1 + 1
    rw [h1]
    omega
  | ⟨2, _⟩ =>
    show win0_3.index ⟨_, hlt⟩ 2 * 4096 ≤ (i 2).val ∧ (i 2).val < win0_3.index ⟨_, hlt⟩ 2 * 4096 + 4096
    rw [h2]
    omega

/-- After the region the first result array holds the neighbour sums. -/
theorem neigh_final : (dats m 0 c).arrAt 2 cfg0.N = neighArr (adj m c) (feats m c) := by
  exact (dats m 0 c).arrAt_eq_of_cover 2 (neighArr (adj m c) (feats m c))
    (fun t hf => flushed2_eq m c t ((flush0_2 t).mp hf)) cover2

/-- After the region the second result array holds the degrees. -/
theorem deg_final : (dats m 0 c).arrAt 3 cfg0.N = degArr (adj m c) := by
  exact (dats m 0 c).arrAt_eq_of_cover 3 (degArr (adj m c))
    (fun t hf => flushed3_eq m c t ((flush0_3 t).mp hf)) cover3

end Cert.KernelIdeal.Centroid

end
-- ==== Proof.Tail.lean ====
/-
  The kernel program's run read to its result, on the extended reals. After the region the host
  lines take the two result arrays — the neighbour sums of the stacked predictions and the
  degrees —, split the neighbour sums back into the two predictions' (features 0..2 and 3..5),
  multiply each by the reciprocal degree, subtract each centroid from its prediction (the two
  Laplacians), subtract the Laplacians, square and sum. The centroids are thus
  `centMul A P1` and `centMul A P2`, and the result is the closing sum `lossK` of them.
-/
import proofs.«107697_j35141422416050_1_alg».proof.Proof.Arrays
import proofs.«107697_j35141422416050_1_alg».proof.Proof.CentroidLaw
import Idealize.ShloMosaic.Lib.StableHlo.Run
import Idealize.ShloMosaic.Lib.Pipeline.Value
import Idealize.ShloMosaic.Lib.ValueLayout
import Idealize.ShloMosaic.Lib.IdealHost

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Centroid

open Cert.KernelIdeal Cert.KernelIdeal.Gen Cert.Centroid

/-- The closing lines: with centroids `C1`, `C2` of predictions `P1`, `P2`, the sum over all entries of `((P2 − C2) − (P1 − C1))²`. -/
def lossK (P1 P2 C1 C2 : Vec Ideal S8x4096x3 .f32) : Vec Ideal S_ .f32 :=
  Host.reduceAdd (F := Ideal) (mulf (subf (subf P2 C2) (subf P1 C1)) (subf (subf P2 C2) (subf P1 C1)))
    (constant (F := Ideal) S_ .f32 0x00000000#32) reducesTo_S8x4096x3_S_d0_1_2 h_S_

/-- The reciprocal degrees spread over the three features, as the host lines spell them: the constant one over the
    degrees read as an [8, 4096] array, given a unit feature axis and spread along it. -/
private def recipK (D : Vec Ideal S8x1x4096 .f32) : Vec Ideal S8x4096x3 .f32 :=
  broadcastInDim S8x4096x3 ![0, 1, 2] bcast_S8x4096x1_S8x4096x3_0_1_2
    (broadcastInDim S8x4096x1 ![0, 1] bcast_S8x4096_S8x4096x1_0_1
      (Host.divf (F := Ideal) (broadcastInDim S8x4096 ![] bcast_S_S8x4096 (constant (F := Ideal) S_ .f32 0x3F800000#32))
        (shapeCast S8x4096 D shapeCasts_S8x1x4096_S8x4096)))

/-- The degrees read as an [8, 4096] array: entry (b, i) is entry (b, 0, i), both sitting at place b · 4096 + i. -/
private theorem degFlat_apply (D : Vec Ideal S8x1x4096 .f32) (b : Fin 8) (i : Fin 4096) :
    shapeCast S8x4096 D shapeCasts_S8x1x4096_S8x4096 (ix2 b i) = D (ix3 b 0 i) := by
  refine shapeCast_apply D shapeCasts_S8x1x4096_S8x4096 (ix2 b i) (ix3 b 0 i) ?_
  rw [Shape.rowMajor_val_three, Shape.rowMajor_val_two]
  show ((b.val * 1 + 0) * 4096 + i.val) = b.val * 4096 + i.val
  omega

/-- The constant one spread over the [8, 4096] nodes reads one everywhere. -/
private theorem ones_apply (j : S8x4096.Idx) :
    broadcastInDim S8x4096 ![] bcast_S_S8x4096 (constant (F := Ideal) S_ .f32 0x3F800000#32) j = (1 : EReal) := by
  rw [broadcastInDim_scalar_apply]
  exact Ideal.ofBits_one_f32

/-- The reciprocal of the degree of node (b, i), before it is spread over the features. -/
private theorem recipFlat_apply (D : Vec Ideal S8x1x4096 .f32) (b : Fin 8) (i : Fin 4096) :
    Host.divf (F := Ideal) (broadcastInDim S8x4096 ![] bcast_S_S8x4096 (constant (F := Ideal) S_ .f32 0x3F800000#32))
        (shapeCast S8x4096 D shapeCasts_S8x1x4096_S8x4096) (ix2 b i) = Ideal.div 1 (D (ix3 b 0 i)) := by
  rw [hostDivf_apply, ones_apply, degFlat_apply]

/-- The spread reciprocal degrees at node (b, i) and any feature: one over entry (b, 0, i) of the degrees. -/
private theorem recipK_apply (D : Vec Ideal S8x1x4096 .f32) (b : Fin 8) (i : Fin 4096) (e : Fin 3) :
    recipK D (ix3 b i e) = Ideal.div 1 (D (ix3 b 0 i)) := by
  unfold recipK
  rw [broadcastInDim_apply ![0, 1, 2] bcast_S8x4096x1_S8x4096x3_0_1_2 _ (ix3 b i e) (ix3 b i 0)
        (fun a => match a with | ⟨0, _⟩ => rfl | ⟨1, _⟩ => rfl | ⟨2, _⟩ => rfl),
      broadcastInDim_apply ![0, 1] bcast_S8x4096_S8x4096x1_0_1 _ (ix3 b i 0) (ix2 b i)
        (fun a => match a with | ⟨0, _⟩ => rfl | ⟨1, _⟩ => rfl)]
  exact recipFlat_apply D b i

/-- Features 0..2 of an [8, 4096, 6] array, read at an index. -/
private theorem sliceLo_apply (N : Vec Ideal S8x4096x6 .f32) (b : Fin 8) (i : Fin 4096) (e : Fin 3) :
    extractStridedSlice S8x4096x3 ![0, 0, 0] N slices_S8x4096x6_S8x4096x3_0_0_0 (ix3 b i e)
      = N (ix3 b i ⟨e.val, by have := e.isLt; omega⟩) := by
  refine extractStridedSlice_apply ![0, 0, 0] N slices_S8x4096x6_S8x4096x3_0_0_0 (ix3 b i e) (ix3 b i ⟨e.val, by have := e.isLt; omega⟩) ?_
  intro a
  match a with
  | ⟨0, _⟩ => show b.val = 0 + b.val; omega
  | ⟨1, _⟩ => show i.val = 0 + i.val; omega
  | ⟨2, _⟩ => show e.val = 0 + e.val; omega

/-- Features 3..5 of an [8, 4096, 6] array, read at an index. -/
private theorem sliceHi_apply (N : Vec Ideal S8x4096x6 .f32) (b : Fin 8) (i : Fin 4096) (e : Fin 3) :
    extractStridedSlice S8x4096x3 ![0, 0, 3] N slices_S8x4096x6_S8x4096x3_0_0_3 (ix3 b i e)
      = N (ix3 b i ⟨3 + e.val, by have := e.isLt; omega⟩) := by
  refine extractStridedSlice_apply ![0, 0, 3] N slices_S8x4096x6_S8x4096x3_0_0_3 (ix3 b i e) (ix3 b i ⟨3 + e.val, by have := e.isLt; omega⟩) ?_
  intro a
  match a with
  | ⟨0, _⟩ => show b.val = 0 + b.val; omega
  | ⟨1, _⟩ => show i.val = 0 + i.val; omega
  | ⟨2, _⟩ => rfl

/-- Features 0..2 of the neighbour sums of the stacked predictions, times the reciprocal degrees, at one node and
    feature: the stacked array's features 0..2 are the first prediction's, so this is that prediction's centroid. -/
private theorem cent_lo_apply (A : ShA.Idx → EReal) (X : ShX.Idx → EReal) (P : ShP.Idx → EReal)
    (hX : ∀ (b : Fin 8) (j : Fin 4096) (e : Fin 3), X (ix3 b j ⟨e.val, by have := e.isLt; omega⟩) = P (ix3 b j e))
    (b : Fin 8) (i : Fin 4096) (e : Fin 3) :
    mulf (F := Ideal) (φ := .f32) (extractStridedSlice S8x4096x3 ![0, 0, 0] (neighArr A X) slices_S8x4096x6_S8x4096x3_0_0_0)
        (recipK (degArr A)) (ix3 b i e) = centMul A P (ix3 b i e) := by
  rw [mulf_apply, sliceLo_apply, recipK_apply]
  show (∑ j : Fin 4096, A (ix3 b i j) * X (ix3 b j ⟨e.val, _⟩)) * Ideal.div 1 (∑ r : Fin 4096, A (ix3 b r i))
    = (∑ j : Fin 4096, A (ix3 b i j) * P (ix3 b j e)) * Ideal.div 1 (∑ r : Fin 4096, A (ix3 b r i))
  simp only [hX]

/-- Features 3..5 likewise are the second prediction's. -/
private theorem cent_hi_apply (A : ShA.Idx → EReal) (X : ShX.Idx → EReal) (P : ShP.Idx → EReal)
    (hX : ∀ (b : Fin 8) (j : Fin 4096) (e : Fin 3), X (ix3 b j ⟨3 + e.val, by have := e.isLt; omega⟩) = P (ix3 b j e))
    (b : Fin 8) (i : Fin 4096) (e : Fin 3) :
    mulf (F := Ideal) (φ := .f32) (extractStridedSlice S8x4096x3 ![0, 0, 3] (neighArr A X) slices_S8x4096x6_S8x4096x3_0_0_3)
        (recipK (degArr A)) (ix3 b i e) = centMul A P (ix3 b i e) := by
  rw [mulf_apply, sliceHi_apply, recipK_apply]
  show (∑ j : Fin 4096, A (ix3 b i j) * X (ix3 b j ⟨3 + e.val, _⟩)) * Ideal.div 1 (∑ r : Fin 4096, A (ix3 b r i))
    = (∑ j : Fin 4096, A (ix3 b i j) * P (ix3 b j e)) * Ideal.div 1 (∑ r : Fin 4096, A (ix3 b r i))
  simp only [hX]

/-- So features 0..2 of the neighbour sums times the reciprocal degrees are the first prediction's centroids, -/
private theorem cent_lo (A : ShA.Idx → EReal) (X : ShX.Idx → EReal) (P : ShP.Idx → EReal)
    (hX : ∀ (b : Fin 8) (j : Fin 4096) (e : Fin 3), X (ix3 b j ⟨e.val, by have := e.isLt; omega⟩) = P (ix3 b j e)) :
    mulf (F := Ideal) (φ := .f32) (extractStridedSlice S8x4096x3 ![0, 0, 0] (neighArr A X) slices_S8x4096x6_S8x4096x3_0_0_0) (recipK (degArr A))
      = centMul A P := by
  funext y
  rw [eq_ix3 y]
  exact cent_lo_apply A X P hX (y 0) (y 1) (y 2)

/-- and features 3..5 the second prediction's. -/
private theorem cent_hi (A : ShA.Idx → EReal) (X : ShX.Idx → EReal) (P : ShP.Idx → EReal)
    (hX : ∀ (b : Fin 8) (j : Fin 4096) (e : Fin 3), X (ix3 b j ⟨3 + e.val, by have := e.isLt; omega⟩) = P (ix3 b j e)) :
    mulf (F := Ideal) (φ := .f32) (extractStridedSlice S8x4096x3 ![0, 0, 3] (neighArr A X) slices_S8x4096x6_S8x4096x3_0_0_3) (recipK (degArr A))
      = centMul A P := by
  funext y
  rw [eq_ix3 y]
  exact cent_hi_apply A X P hX (y 0) (y 1) (y 2)

/-- The lines after the region as a function of the four arrays they read: the two predictions, the neighbour sums
    of the stacked predictions, and the degrees. Features 0..2 of the neighbour sums times the reciprocal degrees is
    the first centroid, features 3..5 the second; the closing sum is taken of them. -/
private def tailK (P1 P2 : Vec Ideal S8x4096x3 .f32) (N : Vec Ideal S8x4096x6 .f32) (D : Vec Ideal S8x1x4096 .f32) :
    Vec Ideal S_ .f32 :=
  lossK P1 P2
    (mulf (F := Ideal) (φ := .f32) (extractStridedSlice S8x4096x3 ![0, 0, 0] N slices_S8x4096x6_S8x4096x3_0_0_0) (recipK D))
    (mulf (F := Ideal) (φ := .f32) (extractStridedSlice S8x4096x3 ![0, 0, 3] N slices_S8x4096x6_S8x4096x3_0_0_3) (recipK D))

/-- At the neighbour sums and degrees of adjacency `A` and of the two predictions stacked, the lines after the region
    compute the closing sum of the two reciprocal-degree centroids. -/
private theorem tailK_eq (A : ShA.Idx → EReal) (X : ShX.Idx → EReal) (P1 P2 : Vec Ideal S8x4096x3 .f32)
    (h1 : ∀ (b : Fin 8) (j : Fin 4096) (e : Fin 3), X (ix3 b j ⟨e.val, by have := e.isLt; omega⟩) = P1 (ix3 b j e))
    (h2 : ∀ (b : Fin 8) (j : Fin 4096) (e : Fin 3), X (ix3 b j ⟨3 + e.val, by have := e.isLt; omega⟩) = P2 (ix3 b j e)) :
    tailK P1 P2 (neighArr A X) (degArr A) = lossK P1 P2 (centMul A P1) (centMul A P2) := by
  unfold tailK
  rw [cent_lo A X P1 h1, cent_hi A X P2 h2]

set_option maxHeartbeats 4000000 in
/-- What the result buffer holds after the lines that follow the region: they read the two result arrays of the
    region — the neighbour sums and the degrees of the launch adjacency — and the two predictions, unchanged. -/
private theorem result_eq (m : (ℓ : Loc nD τ sig) → Buf (Elt Ideal) ℓ) (c : Dev nD) :
    Pipeline.afterTail₀ cfgs (dats m) 0 (V0 m) [hostOps1] c main_v16
      = lossK (m ((c.tc : Thread nD τ).loc main_arg0)) (m ((c.tc : Thread nD τ).loc main_arg1))
          (centMul (m ((c.tc : Thread nD τ).loc main_arg2)) (m ((c.tc : Thread nD τ).loc main_arg0)))
          (centMul (m ((c.tc : Thread nD τ).loc main_arg2)) (m ((c.tc : Thread nD τ).loc main_arg1))) := by
  unfold Pipeline.afterTail₀
  show StableHlo.after hostOps1 _ (Proc.devRef .tc main_v16) = _
  after_results
  -- the two predictions are no window's array and no line before the region writes them
  have h0 := (Pipeline.withArrays_of_ne (cfgs 0).spec c (V0 m c) (fun w => (dats m 0 c).arrAt w (cfgs 0).N) main_arg0
    (by exact (by decide : ∀ w, Pipeline.arrRef spec0 w ≠ main_arg0))).trans (V_main_arg0 m c)
  have h1 := (Pipeline.withArrays_of_ne (cfgs 0).spec c (V0 m c) (fun w => (dats m 0 c).arrAt w (cfgs 0).N) main_arg1
    (by exact (by decide : ∀ w, Pipeline.arrRef spec0 w ≠ main_arg1))).trans (V_main_arg1 m c)
  -- the region's two result arrays
  have hN := (Pipeline.withArrays_arr (cfgs 0).spec launch0.win.arr_inj c (V0 m c) (fun w => (dats m 0 c).arrAt w (cfgs 0).N) 2).trans
    (neigh_final m c)
  have hD := (Pipeline.withArrays_arr (cfgs 0).spec launch0.win.arr_inj c (V0 m c) (fun w => (dats m 0 c).arrAt w (cfgs 0).N) 3).trans
    (deg_final m c)
  refine Eq.trans (b := tailK (m ((c.tc : Thread nD τ).loc main_arg0)) (m ((c.tc : Thread nD τ).loc main_arg1))
    (neighArr (adj m c) (feats m c)) (degArr (adj m c))) ?_ ?_
  · have key := congr (congr (congr (congrArg tailK h0) h1) hN) hD
    exact key
  · rw [tailK_eq (adj m c) (feats m c) _ _ (feats_lo m c) (feats_hi m c)]
    rw [show adj m c = m ((c.tc : Thread nD τ).loc main_arg2) from V_main_arg2 m c]

/-- Every weakly fair execution of the kernel program ends with its result at the closing sum of the
    reciprocal-degree centroids of the launch contents, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16)
          = lossK (m ((c.tc : Thread nD τ).loc main_arg0)) (m ((c.tc : Thread nD τ).loc main_arg1))
              (centMul (m ((c.tc : Thread nD τ).loc main_arg2)) (m ((c.tc : Thread nD τ).loc main_arg0)))
              (centMul (m ((c.tc : Thread nD τ).loc main_arg2)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨?_, ?_, ?_, ?_⟩) (run_main m ρ)
  · exact ((h c).2 main_v16 (Pipeline.mem_restRefs_of main_v16 (by decide) (by decide))).trans (result_eq m c)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).1 0).trans (((dats m 0 c).arrAt_in 0 rfl _).trans ((A_eq m c 0).trans (V_main_arg2 m c)))

end Cert.KernelIdeal.Centroid

end
-- ==== Proof.RefValue.lean ====
/-
  The reference's result, on the extended reals, as the closing sum of its centroids. The
  reference forms each prediction's centroid as the neighbour sum (a batched product of the
  adjacency with the prediction) over the degree (the adjacency summed down its rows, broadcast
  along the features): `centDiv A P`; the zero the host's sum starts from adds nothing.
-/
import proofs.«107697_j35141422416050_1_alg».proof.Proof.Gen.ReferenceIdeal.Read
import proofs.«107697_j35141422416050_1_alg».proof.Proof.CentroidLaw
import Idealize.ShloMosaic.PureOps.Ideal.Laws
import Idealize.ShloMosaic.Lib.ValueIdx

noncomputable section

open Idealize.ShloMosaic Idealize.ShloMosaic.ValueIdx
open scoped BigOperators

namespace Cert.ReferenceIdeal.Centroid

open Cert.ReferenceIdeal Cert.ReferenceIdeal.Gen Cert.Centroid

/-- The closing lines: with centroids `C1`, `C2` of predictions `P1`, `P2`, the sum over all entries of `((P2 − C2) − (P1 − C1))²`. -/
def lossR (P1 P2 C1 C2 : (⟨S8x4096x3, .f32⟩ : BufTy).Contents (Elt Ideal)) : (⟨S_, .f32⟩ : BufTy).Contents (Elt Ideal) :=
  Host.reduceAdd (F := Ideal) (mulf (subf (subf P2 C2) (subf P1 C1)) (subf (subf P2 C2) (subf P1 C1)))
    (constant (F := Ideal) S_ .f32 0x00000000#32) reducesTo_S8x4096x3_S_d0_1_2 h_S_

/-- The reference's first centroid stage is the quotient spelling of the centroid. -/
theorem cent1_eq (x0 : (⟨S8x4096x3, .f32⟩ : BufTy).Contents (Elt Ideal)) (x2 : (⟨S8x4096x4096, .f32⟩ : BufTy).Contents (Elt Ideal)) :
    Cert.ReferenceIdeal.Read.val_main_v4 (F := Ideal) x0 x2 = centDiv x2 x0 := by
  funext y
  rw [Read.val_main_v4_apply, Read.val_main_v1_apply, Read.val_main_v3_apply, Read.val_main_v2_apply,
    Read.val_main_v0_apply, Read.val_main_cst_apply, Ideal.hostDivf_def]
  -- the sum's initial value is the zero of the extended reals
  have h0 : (FloatOps.ofBits (F := Ideal) .f32 0x00000000#32 : EReal) = 0 := Ideal.ofBits_zero_f32
  rw [h0, zero_add]
  -- each index function reads at the coordinates of `y`
  have hl : ∀ k : Fin 4096, Read.lidx_main_v1 y k = ix3 (y 0) (y 1) k := fun k =>
    funext fun a => Fin.ext (by match a with | ⟨0, _⟩ => rfl | ⟨1, _⟩ => rfl | ⟨2, _⟩ => rfl)
  have hr : ∀ k : Fin 4096, Read.ridx_main_v1 y k = ix3 (y 0) k (y 2) := fun k =>
    funext fun a => Fin.ext (by match a with | ⟨0, _⟩ => rfl | ⟨1, _⟩ => rfl | ⟨2, _⟩ => rfl)
  have hd : ∀ k : Fin 4096,
      Read.idx_main_v0 (Read.idx_main_v2 (Read.idx_main_v3 y)) k = ix3 (y 0) k (y 1) := fun k =>
    funext fun a => Fin.ext (by match a with | ⟨0, _⟩ => rfl | ⟨1, _⟩ => rfl | ⟨2, _⟩ => rfl)
  unfold centDiv nbr deg
  simp only [hl, hr, hd]
  rfl

/-- The reference's second centroid stage likewise. -/
theorem cent2_eq (x1 : (⟨S8x4096x3, .f32⟩ : BufTy).Contents (Elt Ideal)) (x2 : (⟨S8x4096x4096, .f32⟩ : BufTy).Contents (Elt Ideal)) :
    Cert.ReferenceIdeal.Read.val_main_v10 (F := Ideal) x1 x2 = centDiv x2 x1 := by
  funext y
  rw [Read.val_main_v10_apply, Read.val_main_v7_apply, Read.val_main_v9_apply, Read.val_main_v8_apply,
    Read.val_main_v6_apply, Read.val_main_cst_0_apply, Ideal.hostDivf_def]
  -- the sum's initial value is the zero of the extended reals
  have h0 : (FloatOps.ofBits (F := Ideal) .f32 0x00000000#32 : EReal) = 0 := Ideal.ofBits_zero_f32
  rw [h0, zero_add]
  -- each index function reads at the coordinates of `y`
  have hl : ∀ k : Fin 4096, Read.lidx_main_v7 y k = ix3 (y 0) (y 1) k := fun k =>
    funext fun a => Fin.ext (by match a with | ⟨0, _⟩ => rfl | ⟨1, _⟩ => rfl | ⟨2, _⟩ => rfl)
  have hr : ∀ k : Fin 4096, Read.ridx_main_v7 y k = ix3 (y 0) k (y 2) := fun k =>
    funext fun a => Fin.ext (by match a with | ⟨0, _⟩ => rfl | ⟨1, _⟩ => rfl | ⟨2, _⟩ => rfl)
  have hd : ∀ k : Fin 4096,
      Read.idx_main_v6 (Read.idx_main_v8 (Read.idx_main_v9 y)) k = ix3 (y 0) k (y 1) := fun k =>
    funext fun a => Fin.ext (by match a with | ⟨0, _⟩ => rfl | ⟨1, _⟩ => rfl | ⟨2, _⟩ => rfl)
  unfold centDiv nbr deg
  simp only [hl, hr, hd]
  rfl

/-- The reference's result is the closing sum of the quotient centroids. -/
theorem result_eq (x0 x1 : (⟨S8x4096x3, .f32⟩ : BufTy).Contents (Elt Ideal)) (x2 : (⟨S8x4096x4096, .f32⟩ : BufTy).Contents (Elt Ideal)) :
    Cert.ReferenceIdeal.Read.val_main_v14 (F := Ideal) x0 x1 x2 = lossR x0 x1 (centDiv x2 x0) (centDiv x2 x1) := by
  unfold Read.val_main_v14 Read.val_main_v13 Read.val_main_v12 Read.val_main_v11 Read.val_main_v5
  rw [cent1_eq, cent2_eq]
  rfl

end Cert.ReferenceIdeal.Centroid

end
-- ==== Proof.PreDecode.lean ====
/-
  What the precondition says of the adjacency, on the extended reals: its last conjunct compares
  every column sum `Σ_r A[b, r, k]` (the host's sum over axis 1, started from zero) with zero and
  asks that none be equal, so under the precondition every degree is nonzero.
-/
import proofs.«107697_j35141422416050_1_alg».proof.Pre_finite_inputs
import Idealize.ShloMosaic.PureOps.Ideal.Laws
import Idealize.ShloMosaic.Lib.ValueIdx
import Idealize.ShloMosaic.Lib.ReduceAll
import Idealize.ShloMosaic.Lib.StableHlo.Predicate

noncomputable section

open Idealize.ShloMosaic Idealize.ShloMosaic.ValueIdx
open scoped BigOperators

namespace Cert.Centroid

/-- The scalar shape has one index. -/
private instance instSubsingletonScalarIdx : Subsingleton Cert.Pre_finite_inputs.S_.Idx :=
  ⟨fun a b => funext fun d => d.elim0⟩

/-- The index the sum over the row axis inserts at column position `(b, k)` is `(b, r, k)`. -/
private theorem lift_eq_ix3 (hR : Cert.Pre_finite_inputs.S8x4096x4096.Reduces [1] Cert.Pre_finite_inputs.S8x4096)
    (b : Fin 8) (k : Fin 4096) (r : Fin 4096) :
    hR.lift (ix2 b k) r = ix3 b r k := by
  funext d
  match d with
  | ⟨0, _⟩ => exact Fin.ext rfl
  | ⟨1, _⟩ => exact Fin.ext rfl
  | ⟨2, _⟩ => exact Fin.ext rfl

/-- Under the precondition no degree vanishes. -/
theorem deg_ne_zero_of_pre [Cert.Pre_finite_inputs.Facts]
    (P1 P2 : FVec Ideal Cert.Pre_finite_inputs.S8x4096x3 .f32) (A : FVec Ideal Cert.Pre_finite_inputs.S8x4096x4096 .f32)
    (h : Cert.Pre_finite_inputs.fn (F := Ideal) P1 P2 A = fun _ => 1#1) (b : Fin 8) (k : Fin 4096) :
    (∑ r : Fin 4096, A (ix3 b r k)) ≠ 0 := by
  have h0 := congrFun h ValueIdx.ix0
  dsimp only [Cert.Pre_finite_inputs.fn, Cert.Pre_finite_inputs.fn_part1] at h0
  -- the last conjunct of the and-chain: the all-reduction of the comparison is one
  have hall := (IntOp.andi_eq_one.1 h0).2
  -- so the comparison is one at the column position (b, k)
  have hbk := Host.reduce_andi_all _ _ _ _ _ hall (ix2 b k)
  rw [cmpf_apply] at hbk
  have hR : Cert.Pre_finite_inputs.S8x4096x4096.Reduces [1] Cert.Pre_finite_inputs.S8x4096 := by decide
  -- the compared value: the host's sum over the row axis, started from zero, is the column sum
  have hx : Host.reduceAdd A (constant Cert.Pre_finite_inputs.S_ .f32 0x00000000#32)
      Cert.Pre_finite_inputs.Facts.reducesTo_S8x4096x4096_S8x4096_d1 Cert.Pre_finite_inputs.Facts.h_S_ (ix2 b k)
        = ∑ r : Fin 4096, A (ix3 b r k) := by
    show Ideal.hostReduceAdd _ A (Ideal.ofBits .f32 0x00000000#32) (ix2 b k) = _
    rw [Ideal.hostReduceAdd_single _ hR, Ideal.ofBits_zero_f32, zero_add]
    exact Finset.sum_congr rfl fun r _ => congrArg A (lift_eq_ix3 hR b k r)
  -- what it is compared with: the zero scalar, broadcast
  have hy : broadcastInDim Cert.Pre_finite_inputs.S8x4096 ![] Cert.Pre_finite_inputs.Facts.bcast_S_S8x4096
      (constant (F := Ideal) Cert.Pre_finite_inputs.S_ .f32 0x00000000#32) (ix2 b k) = (0 : EReal) :=
    Ideal.ofBits_zero_f32
  rw [hx, hy, Ideal.cmpf_def] at hbk
  -- "not equal" on the extended reals, decided
  have hne : decide ((∑ r : Fin 4096, A (ix3 b r k)) ≠ (0 : EReal)) = true :=
    (StableHlo.Predicate.ofBool_eq_one_iff _).1 hbk
  exact of_decide_eq_true hne

end Cert.Centroid

end
-- ==== Proof.lean ====
/-
  The kernel streams each batch's adjacency once, in 2048 × 1024 tiles, and draws from the one
  pass both the neighbour sums `Σ_j A[b, i, j] · P[b, j, e]` of the two predictions (stacked side
  by side, a tile product accumulated over the four column tiles) and the degrees
  `Σ_r A[b, r, i]` (column sums accumulated over the two row tiles). Its host lines then form
  each centroid as neighbour sum times reciprocal degree, the two Laplacians `P − centroid`,
  their difference, and the sum of its squares. The reference forms the same quantities from
  whole-array operations, its centroids as neighbour sum OVER degree.

  On the extended reals the tile sums regroup into the whole sums with no condition (addition
  is commutative and associative there), and `n · (1 / d) = n / d` for every `d ≠ 0`; at `d = 0`
  and `n = 0` the two differ (`0 · ⊤ = 0` against `0 / 0 = ⊥`), which is why the precondition asks
  that no degree vanish: there the reference itself divides by zero. The rest of both programs
  is the same closing sum of the same centroids.

  The three frames: the kernel's two are the generated ones; the reference's is its run with
  the result dropped. The idealization rewrote nothing.
-/
import proofs.«107697_j35141422416050_1_alg».proof.Defs
import proofs.«107697_j35141422416050_1_alg».proof.Proof.Gen.Kernel
import proofs.«107697_j35141422416050_1_alg».proof.Proof.Gen.Kernel.Skeleton
import proofs.«107697_j35141422416050_1_alg».proof.Proof.Gen.Kernel.Launch
import proofs.«107697_j35141422416050_1_alg».proof.Proof.Gen.Kernel.Points
import proofs.«107697_j35141422416050_1_alg».proof.Proof.Gen.Kernel.Frame
import proofs.«107697_j35141422416050_1_alg».proof.Proof.Gen.KernelIdeal
import proofs.«107697_j35141422416050_1_alg».proof.Proof.Gen.KernelIdeal.Skeleton
import proofs.«107697_j35141422416050_1_alg».proof.Proof.Gen.KernelIdeal.Launch
import proofs.«107697_j35141422416050_1_alg».proof.Proof.Gen.KernelIdeal.Points
import proofs.«107697_j35141422416050_1_alg».proof.Proof.Gen.KernelIdeal.Frame
import proofs.«107697_j35141422416050_1_alg».proof.Proof.Gen.ReferenceIdeal
import proofs.«107697_j35141422416050_1_alg».proof.Proof.Gen.ReferenceIdeal.Run
import proofs.«107697_j35141422416050_1_alg».proof.Proof.Gen.ReferenceIdeal.Read
import proofs.«107697_j35141422416050_1_alg».proof.Proof.Gen.Pre_finite_inputs
import proofs.«107697_j35141422416050_1_alg».proof.Proof.CentroidLaw
import proofs.«107697_j35141422416050_1_alg».proof.Proof.Tail
import proofs.«107697_j35141422416050_1_alg».proof.Proof.RefValue
import proofs.«107697_j35141422416050_1_alg».proof.Proof.PreDecode
import Idealize.ShloMosaic.Adequacy
import Idealize.ShloMosaic.Init

noncomputable section

namespace Cert.Proof

open Idealize.ShloMosaic Idealize.SL.Sem Cert.Centroid

/-- The word-level kernel runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the closing sum of the two centroids: the kernel's centroids are
    neighbour sum times reciprocal degree, the reference's neighbour sum over degree, one
    function where no degree vanishes, which the precondition says. -/
theorem algebraic : Cert.algebraic_KernelIdeal_ReferenceIdeal := by
  intro m ρ m' ρ' hpre hagree
  refine ⟨_, Cert.KernelIdeal.Centroid.run m ρ, ?_⟩
  refine (θ_run Cert.ReferenceIdeal.defs _ _).mono (fun _ h c => ⟨(h c).1.trans ?_, (h c).2⟩)
    (Cert.ReferenceIdeal.Value.run (F := Ideal) m' ρ')
  have hdeg := deg_ne_zero_of_pre _ _ _ (hpre c)
  rw [Cert.ReferenceIdeal.Read.val_main_v14_eq, Cert.ReferenceIdeal.Centroid.result_eq,
    (hagree c).1, (hagree c).2.1, (hagree c).2.2,
    ← centMul_eq_centDiv _ _ hdeg, ← centMul_eq_centDiv _ _ hdeg]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
